-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S128 : Shape := ⟨1, ![128]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x512x512 .f32) (main_arg1 : IVec S128 32) (main_arg2 : IVec S128 32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  let main_cst_0 : FVec F S_ .f32 := constant S_ .f32 0x00000000#32
  let main_v4 : FVec F S128x512x512 .f32 := broadcastInDim S128x512x512 ![] bcast_S_S128x512x512 main_cst_0
  let main_v5 : IVec S128x512x512 1 := cmpf .oge main_arg0 main_v4
  let main_c_1 : IVec S_ 1 := constantI S_ 1 1#1
  let main_v6 : IVec S_ 1 := (fun x v => Host.reduce IntOp.andi x v reducesTo_S128x512x512_S_d0_1_2 h_S_) main_v5 main_c_1
  let main_v7 : IVec S_ 1 := andi main_v3 main_v6
  let main_v8 : IVec S128 1 := cmpi .sle main_arg1 main_arg2
  let main_c_2 : IVec S_ 32 := constantI S_ 32 0#32
  let main_v9 : IVec S128 32 := broadcastInDim S128 ![] bcast_S_S128 main_c_2
  let main_v10 : IVec S128 1 := cmpi .sle main_arg1 main_v9
  let main_v11 : IVec S128 1 := ori main_v8 main_v10
  let main_c_3 : IVec S_ 32 := constantI S_ 32 512#32
  let main_v12 : IVec S128 32 := broadcastInDim S128 ![] bcast_S_S128 main_c_3
  let main_v13 : IVec S128 1 := cmpi .sge main_arg2 main_v12
  let main_v14 : IVec S128 1 := ori main_v11 main_v13
  let main_c_4 : IVec S_ 1 := constantI S_ 1 1#1
  let main_v15 : IVec S_ 1 := (fun x v => Host.reduce IntOp.andi x v reducesTo_S128_S_d0 h_S_) main_v14 main_c_4
  let main_v16 : IVec S_ 1 := andi main_v7 main_v15
  main_v16
-- ==== Kernel.lean ====
abbrev S128x512x512 : Shape := ⟨3, ![128, 512, 512]⟩
abbrev S128 : Shape := ⟨1, ![128]⟩
abbrev S2x512x512 : Shape := ⟨3, ![2, 512, 512]⟩
abbrev S512x512 : Shape := ⟨2, ![512, 512]⟩
abbrev S512x1 : Shape := ⟨2, ![512, 1]⟩
abbrev S1x512 : Shape := ⟨2, ![1, 512]⟩
abbrev S1 : Shape := ⟨1, ![1]⟩
abbrev S1x512x512 : Shape := ⟨3, ![1, 512, 512]⟩
abbrev S512 : Shape := ⟨1, ![512]⟩

abbrev nBuf : Space → Nat
  | .hbm => 2
  | .vmem => 4
  | .smem => 2
  | _ => 0

abbrev bufTy : (tb : Table) → Fin (tcTables nBuf tb) → BufTy
  | .hbm, ⟨0, _⟩ => ⟨S128x512x512, .f32⟩
  | .hbm, ⟨1, _⟩ => ⟨S128x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .smem, ⟨0, _⟩ => ⟨S128, .i32⟩
  | .local _ .smem, ⟨1, _⟩ => ⟨S128, .i32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v4 : BitVec 32 := Scalar.muli arg0 c2_i32
  let v5 : BitVec 32 := Scalar.addi v4 c0_i32
  let v6 : Index := Scalar.indexCast v5
  ![v6.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S512x512_d0_w32 : S512x512.Iotas .tc 32 [0]
  iota_S512x512_d1_w32 : S512x512.Iotas .tc 32 [1]
  iota_S512x1_d0_w32 : S512x1.Iotas .tc 32 [0]
  iota_S1x512_d1_w32 : S1x512.Iotas .tc 32 [1]
  numel1_S1 : S1.numel = 1
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  reduces_S512x512_S512 : S512x512.Reduces [0] S512
  shapeCasts_S512_S1x512 : S512.ShapeCasts S1x512
  broadcasts_S1x512_S512x512 : S1x512.Broadcasts S512x512
  reduces_S512x512_S512_2 : S512x512.Reduces [1] S512
  shapeCasts_S512_S512x1 : S512.ShapeCasts S512x1
  broadcasts_S512x1_S512x512 : S512x1.Broadcasts S512x512
  shapeCasts_S512x512_S1x512x512 : S512x512.ShapeCasts S1x512x512
  inb_S2x512x512_S1x512x512_1_0_0 : ∀ a, (![1, 0, 0] : Fin 3 → Nat) a + S1x512x512.size a ≤ S2x512x512.size a
  hrank0 : 0 < grid0.rank
  k0_off1_inb : ∀ i : grid0.Coords, ∀ (r : Fin 2), ∀ a, (k0_off1 i (BitVec.ofNat 32 r.val)) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S128x512x512.size a
  hwx0_0 : ∀ i : grid0.Coords, EltTy.bits .f32 = 32 ∨ (Rect.block (s := S128x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S128x512x512.size a
  hwx0_1 : ∀ i : grid0.Coords, EltTy.bits .f32 = 32 ∨ (Rect.block (s := S128x512x512) S2x512x512.size (cc0_transform_1 i) (hinb0_1 i)).WholeWords (EltTy.packing .f32)

variable [Facts₀]

abbrev spec0_0 : Pipeline.WinSpec sig grid0.rank :=
  Pipeline.WinSpec.ofSpec (Memref.whole main_arg0) S2x512x512.size reads0_0 false false 2 stage0_0 sem0_0 nbuf0_0 hstage0_0

abbrev spec0_1 : Pipeline.WinSpec sig grid0.rank :=
  Pipeline.WinSpec.ofSpec (Memref.whole main_v0) S2x512x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S128x512x512 : Shape := ⟨3, ![128, 512, 512]⟩
abbrev S128 : Shape := ⟨1, ![128]⟩
abbrev S512 : Shape := ⟨1, ![512]⟩
abbrev S1x512 : Shape := ⟨2, ![1, 512]⟩
abbrev S128x1 : Shape := ⟨2, ![128, 1]⟩
abbrev S128x512 : Shape := ⟨2, ![128, 512]⟩
abbrev S128x512x1 : Shape := ⟨3, ![128, 512, 1]⟩
abbrev S128x1x512 : Shape := ⟨3, ![128, 1, 512]⟩
abbrev S_ : Shape := ⟨0, ![]⟩

abbrev nBuf : Space → Nat
  | .hbm => 228
  | .vmem => 0
  | .smem => 0
  | _ => 0

abbrev hbmTy0_0 (i : Nat) : BufTy := match i % 128 with
  | 0 => ⟨S128x512x512, .f32⟩
  | 1 => ⟨S128, .i32⟩
  | 2 => ⟨S128, .i32⟩
  | 3 => ⟨S512, .i32⟩
  | 4 => ⟨S512, .i32⟩
  | 5 => ⟨S1x512, .i32⟩
  | 6 => ⟨S128x1, .i32⟩
  | 7 => ⟨S128x512, .i32⟩
  | 8 => ⟨S128x512, .i32⟩
  | 9 => ⟨S128x512, .i1⟩
  | 10 => ⟨S1x512, .i32⟩
  | 11 => ⟨S128x1, .i32⟩
  | 12 => ⟨S128x512, .i32⟩
  | 13 => ⟨S128x512, .i32⟩
  | 14 => ⟨S128x512, .i1⟩
  | 15 => ⟨S1x512, .i32⟩
  | 16 => ⟨S128x1, .i32⟩
  | 17 => ⟨S128x512, .i32⟩
  | 18 => ⟨S128x512, .i32⟩
  | 19 => ⟨S128x512, .i1⟩
  | 20 => ⟨S1x512, .i32⟩
  | 21 => ⟨S128x1, .i32⟩
  | 22 => ⟨S128x512, .i32⟩
  | 23 => ⟨S128x512, .i32⟩
  | 24 => ⟨S128x512, .i1⟩
  | 25 => ⟨S128x512x1, .i1⟩
  | 26 => ⟨S128x1x512, .i1⟩
  | 27 => ⟨S128x512x512, .i1⟩
  | 28 => ⟨S128x512x512, .i1⟩
  | 29 => ⟨S128x512x512, .i1⟩
  | 30 => ⟨S128x512x1, .i1⟩
  | 31 => ⟨S128x1x512, .i1⟩
  | 32 => ⟨S128x512x512, .i1⟩
  | 33 => ⟨S128x512x512, .i1⟩
  | 34 => ⟨S128x512x512, .i1⟩
  | 35 => ⟨S_, .f32⟩
  | 36 => ⟨S128x512x512, .f32⟩
  | 37 => ⟨S128x512x512, .f32⟩
  | 38 => ⟨S128x512x1, .i1⟩
  | 39 => ⟨S_, .f32⟩
  | 40 => ⟨S_, .f32⟩
  | 41 => ⟨S128x512x512, .i1⟩
  | 42 => ⟨S128x512x512, .f32⟩
  | 43 => ⟨S128x512x512, .f32⟩
  | 44 => ⟨S_, .f32⟩
  | 45 => ⟨S128x512, .f32⟩
  | 46 => ⟨S128x1x512, .f32⟩
  | 47 => ⟨S_, .f32⟩
  | 48 => ⟨S_, .f32⟩
  | 49 => ⟨S128x512x512, .f32⟩
  | 50 => ⟨S128x512x512, .f32⟩
  | 51 => ⟨S128x512x512, .f32⟩
  | 52 => ⟨S_, .f32⟩
  | 53 => ⟨S_, .f32⟩
  | 54 => ⟨S128x512x512, .f32⟩
  | 55 => ⟨S128x512x512, .f32⟩
  | 56 => ⟨S128x512x512, .f32⟩
  | 57 => ⟨S128x1x512, .i1⟩
  | 58 => ⟨S_, .f32⟩
  | 59 => ⟨S_, .f32⟩
  | 60 => ⟨S128x512x512, .i1⟩
  | 61 => ⟨S128x512x512, .f32⟩
  | 62 => ⟨S128x512x512, .f32⟩
  | 63 => ⟨S_, .f32⟩
  | 64 => ⟨S128x512, .f32⟩
  | 65 => ⟨S128x512x1, .f32⟩
  | 66 => ⟨S_, .f32⟩
  | 67 => ⟨S_, .f32⟩
  | 68 => ⟨S128x512x512, .f32⟩
  | 69 => ⟨S128x512x512, .f32⟩
  | 70 => ⟨S128x512x512, .f32⟩
  | 71 => ⟨S_, .f32⟩
  | 72 => ⟨S_, .f32⟩
  | 73 => ⟨S128x512x512, .f32⟩
  | 74 => ⟨S128x512x512, .f32⟩
  | 75 => ⟨S128x512x512, .f32⟩
  | 76 => ⟨S128x512x1, .i1⟩
  | 77 => ⟨S_, .f32⟩
  | 78 => ⟨S_, .f32⟩
  | 79 => ⟨S128x512x512, .i1⟩
  | 80 => ⟨S128x512x512, .f32⟩
  | 81 => ⟨S128x512x512, .f32⟩
  | 82 => ⟨S_, .f32⟩
  | 83 => ⟨S128x512, .f32⟩
  | 84 => ⟨S128x1x512, .f32⟩
  | 85 => ⟨S_, .f32⟩
  | 86 => ⟨S_, .f32⟩
  | 87 => ⟨S128x512x512, .f32⟩
  | 88 => ⟨S128x512x512, .f32⟩
  | 89 => ⟨S128x512x512, .f32⟩
  | 90 => ⟨S_, .f32⟩
  | 91 => ⟨S_, .f32⟩
  | 92 => ⟨S128x512x512, .f32⟩
  | 93 => ⟨S128x512x512, .f32⟩
  | 94 => ⟨S128x512x512, .f32⟩
  | 95 => ⟨S128x1x512, .i1⟩
  | 96 => ⟨S_, .f32⟩
  | 97 => ⟨S_, .f32⟩
  | 98 => ⟨S128x512x512, .i1⟩
  | 99 => ⟨S128x512x512, .f32⟩
  | 100 => ⟨S128x512x512, .f32⟩
  | 101 => ⟨S_, .f32⟩
  | 102 => ⟨S128x512, .f32⟩
  | 103 => ⟨S128x512x1, .f32⟩
  | 104 => ⟨S_, .f32⟩
  | 105 => ⟨S_, .f32⟩
  | 106 => ⟨S128x512x512, .f32⟩
  | 107 => ⟨S128x512x512, .f32⟩
  | 108 => ⟨S128x512x512, .f32⟩
  | 109 => ⟨S_, .f32⟩
  | 110 => ⟨S_, .f32⟩
  | 111 => ⟨S128x512x512, .f32⟩
  | 112 => ⟨S128x512x512, .f32⟩
  | 113 => ⟨S128x512x512, .f32⟩
  | 114 => ⟨S128x512x1, .i1⟩
  | 115 => ⟨S_, .f32⟩
  | 116 => ⟨S_, .f32⟩
  | 117 => ⟨S128x512x512, .i1⟩
  | 118 => ⟨S128x512x512, .f32⟩
  | 119 => ⟨S128x512x512, .f32⟩
  | 120 => ⟨S_, .f32⟩
  | 121 => ⟨S128x512, .f32⟩
  | 122 => ⟨S128x1x512, .f32⟩
  | 123 => ⟨S_, .f32⟩
  | 124 => ⟨S_, .f32⟩
  | 125 => ⟨S128x512x512, .f32⟩
  | 126 => ⟨S128x512x512, .f32⟩
  | 127 => ⟨S128x512x512, .f32⟩
  | _ => ⟨S128x512x512, .f32⟩

abbrev hbmTy0_1 (i : Nat) : BufTy := match i % 128 with
  | 0 => ⟨S_, .f32⟩
  | 1 => ⟨S_, .f32⟩
  | 2 => ⟨S128x512x512, .f32⟩
  | 3 => ⟨S128x512x512, .f32⟩
  | 4 => ⟨S128x512x512, .f32⟩
  | 5 => ⟨S128x1x512, .i1⟩
  | 6 => ⟨S_, .f32⟩
  | 7 => ⟨S_, .f32⟩
  | 8 => ⟨S128x512x512, .i1⟩
  | 9 => ⟨S128x512x512, .f32⟩
  | 10 => ⟨S128x512x512, .f32⟩
  | 11 => ⟨S_, .f32⟩
  | 12 => ⟨S128x512, .f32⟩
  | 13 => ⟨S128x512x1, .f32⟩
  | 14 => ⟨S_, .f32⟩
  | 15 => ⟨S_, .f32⟩
  | 16 => ⟨S128x512x512, .f32⟩
  | 17 => ⟨S128x512x512, .f32⟩
  | 18 => ⟨S128x512x512, .f32⟩
  | 19 => ⟨S_, .f32⟩
  | 20 => ⟨S_, .f32⟩
  | 21 => ⟨S128x512x512, .f32⟩
  | 22 => ⟨S128x512x512, .f32⟩
  | 23 => ⟨S128x512x512, .f32⟩
  | 24 => ⟨S128x512x1, .i1⟩
  | 25 => ⟨S_, .f32⟩
  | 26 => ⟨S_, .f32⟩
  | 27 => ⟨S128x512x512, .i1⟩
  | 28 => ⟨S128x512x512, .f32⟩
  | 29 => ⟨S128x512x512, .f32⟩
  | 30 => ⟨S_, .f32⟩
  | 31 => ⟨S128x512, .f32⟩
  | 32 => ⟨S128x1x512, .f32⟩
  | 33 => ⟨S_, .f32⟩
  | 34 => ⟨S_, .f32⟩
  | 35 => ⟨S128x512x512, .f32⟩
  | 36 => ⟨S128x512x512, .f32⟩
  | 37 => ⟨S128x512x512, .f32⟩
  | 38 => ⟨S_, .f32⟩
  | 39 => ⟨S_, .f32⟩
  | 40 => ⟨S128x512x512, .f32⟩
  | 41 => ⟨S128x512x512, .f32⟩
  | 42 => ⟨S128x512x512, .f32⟩
  | 43 => ⟨S128x1x512, .i1⟩
  | 44 => ⟨S_, .f32⟩
  | 45 => ⟨S_, .f32⟩
  | 46 => ⟨S128x512x512, .i1⟩
  | 47 => ⟨S128x512x512, .f32⟩
  | 48 => ⟨S128x512x512, .f32⟩
  | 49 => ⟨S_, .f32⟩
  | 50 => ⟨S128x512, .f32⟩
  | 51 => ⟨S128x512x1, .f32⟩
  | 52 => ⟨S_, .f32⟩
  | 53 => ⟨S_, .f32⟩
  | 54 => ⟨S128x512x512, .f32⟩
  | 55 => ⟨S128x512x512, .f32⟩
  | 56 => ⟨S128x512x512, .f32⟩
  | 57 => ⟨S_, .f32⟩
  | 58 => ⟨S_, .f32⟩
  | 59 => ⟨S128x512x512, .f32⟩
  | 60 => ⟨S128x512x512, .f32⟩
  | 61 => ⟨S128x512x512, .f32⟩
  | 62 => ⟨S128x512x1, .i1⟩
  | 63 => ⟨S_, .f32⟩
  | 64 => ⟨S_, .f32⟩
  | 65 => ⟨S128x512x512, .i1⟩
  | 66 => ⟨S128x512x512, .f32⟩
  | 67 => ⟨S128x512x512, .f32⟩
  | 68 => ⟨S_, .f32⟩
  | 69 => ⟨S128x512, .f32⟩
  | 70 => ⟨S128x1x512, .f32⟩
  | 71 => ⟨S_, .f32⟩
  | 72 => ⟨S_, .f32⟩
  | 73 => ⟨S128x512x512, .f32⟩
  | 74 => ⟨S128x512x512, .f32⟩
  | 75 => ⟨S128x512x512, .f32⟩
  | 76 => ⟨S_, .f32⟩
  | 77 => ⟨S_, .f32⟩
  | 78 => ⟨S128x512x512, .f32⟩
  | 79 => ⟨S128x512x512, .f32⟩
  | 80 => ⟨S128x512x512, .f32⟩
  | 81 => ⟨S128x1x512, .i1⟩
  | 82 => ⟨S_, .f32⟩
  | 83 => ⟨S_, .f32⟩
  | 84 => ⟨S128x512x512, .i1⟩
  | 85 => ⟨S128x512x512, .f32⟩
  | 86 => ⟨S128x512x512, .f32⟩
  | 87 => ⟨S_, .f32⟩
  | 88 => ⟨S128x512, .f32⟩
  | 89 => ⟨S128x512x1, .f32⟩
  | 90 => ⟨S_, .f32⟩
  | 91 => ⟨S_, .f32⟩
  | 92 => ⟨S128x512x512, .f32⟩
  | 93 => ⟨S128x512x512, .f32⟩
  | 94 => ⟨S128x512x512, .f32⟩
  | 95 => ⟨S_, .f32⟩
  | 96 => ⟨S_, .f32⟩
  | 97 => ⟨S128x512x512, .f32⟩
  | 98 => ⟨S128x512x512, .f32⟩
  | 99 => ⟨S128x512x512, .f32⟩
  | _ => ⟨S128x512x512, .f32⟩

abbrev hbmTy (i : Nat) : BufTy := match i / 128 with
  | 0 => hbmTy0_0 i
  | 1 => hbmTy0_1 i
  | _ => ⟨S128x512x512, .f32⟩

abbrev bufTy : (tb : Table) → Fin (tcTables nBuf tb) → BufTy
  | .hbm, ⟨i, _⟩ => hbmTy i
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v38 : Ref sig .tc := ⟨.hbm, 51, rfl⟩
abbrev main_cst_3 : Ref sig .tc := ⟨.hbm, 52, rfl⟩
abbrev main_call2_v0 : Ref sig .tc := ⟨.hbm, 53, rfl⟩
abbrev main_call2_v1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v45 : Ref sig .tc := ⟨.hbm, 70, rfl⟩
abbrev main_cst_7 : Ref sig .tc := ⟨.hbm, 71, rfl⟩
abbrev main_call5_v0 : Ref sig .tc := ⟨.hbm, 72, rfl⟩
abbrev main_call5_v1 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_call6_v0 : Ref sig .tc := ⟨.hbm, 78, rfl⟩
abbrev main_call6_v1 : Ref sig .tc := ⟨.hbm, 79, rfl⟩
abbrev main_call6_v2 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_call7_v0 : Ref sig .tc := ⟨.hbm, 86, rfl⟩
abbrev main_call7_v1 : Ref sig .tc := ⟨.hbm, 87, rfl⟩
abbrev main_call7_v2 : Ref sig .tc := ⟨.hbm, 88, rfl⟩
abbrev main_v52 : Ref sig .tc := ⟨.hbm, 89, rfl⟩
abbrev main_cst_11 : Ref sig .tc := ⟨.hbm, 90, rfl⟩
abbrev main_call8_v0 : Ref sig .tc := ⟨.hbm, 91, rfl⟩
abbrev main_call8_v1 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_12 : Ref sig .tc := ⟨.hbm, 96, rfl⟩
abbrev main_call9_v0 : Ref sig .tc := ⟨.hbm, 97, rfl⟩
abbrev main_call9_v1 : Ref sig .tc := ⟨.hbm, 98, rfl⟩
abbrev main_call9_v2 : Ref sig .tc := ⟨.hbm, 99, rfl⟩
abbrev main_v56 : Ref sig .tc := ⟨.hbm, 100, rfl⟩
abbrev main_cst_13 : Ref sig .tc := ⟨.hbm, 101, rfl⟩
abbrev main_v57 : Ref sig .tc := ⟨.hbm, 102, rfl⟩
abbrev main_v58 : Ref sig .tc := ⟨.hbm, 103, rfl⟩
abbrev main_cst_14 : Ref sig .tc := ⟨.hbm, 104, rfl⟩
abbrev main_call10_v0 : Ref sig .tc := ⟨.hbm, 105, rfl⟩
abbrev main_call10_v1 : Ref sig .tc := ⟨.hbm, 106, rfl⟩
abbrev main_call10_v2 : Ref sig .tc := ⟨.hbm, 107, rfl⟩
abbrev main_v59 : Ref sig .tc := ⟨.hbm, 108, rfl⟩
abbrev main_cst_15 : Ref sig .tc := ⟨.hbm, 109, rfl⟩
abbrev main_call11_v0 : Ref sig .tc := ⟨.hbm, 110, rfl⟩
abbrev main_call11_v1 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_16 : Ref sig .tc := ⟨.hbm, 115, rfl⟩
abbrev main_call12_v0 : Ref sig .tc := ⟨.hbm, 116, rfl⟩
abbrev main_call12_v1 : Ref sig .tc := ⟨.hbm, 117, rfl⟩
abbrev main_call12_v2 : Ref sig .tc := ⟨.hbm, 118, rfl⟩
abbrev main_v63 : Ref sig .tc := ⟨.hbm, 119, rfl⟩
abbrev main_cst_17 : Ref sig .tc := ⟨.hbm, 120, rfl⟩
abbrev main_v64 : Ref sig .tc := ⟨.hbm, 121, rfl⟩
abbrev main_v65 : Ref sig .tc := ⟨.hbm, 122, rfl⟩
abbrev main_cst_18 : Ref sig .tc := ⟨.hbm, 123, rfl⟩
abbrev main_call13_v0 : Ref sig .tc := ⟨.hbm, 124, rfl⟩
abbrev main_call13_v1 : Ref sig .tc := ⟨.hbm, 125, rfl⟩
abbrev main_call13_v2 : Ref sig .tc := ⟨.hbm, 126, rfl⟩
abbrev main_v66 : Ref sig .tc := ⟨.hbm, 127, rfl⟩
abbrev main_cst_19 : Ref sig .tc := ⟨.hbm, 128, rfl⟩
abbrev main_call14_v0 : Ref sig .tc := ⟨.hbm, 129, rfl⟩
abbrev main_call14_v1 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_cst_20 : Ref sig .tc := ⟨.hbm, 134, rfl⟩
abbrev main_call15_v0 : Ref sig .tc := ⟨.hbm, 135, rfl⟩
abbrev main_call15_v1 : Ref sig .tc := ⟨.hbm, 136, rfl⟩
abbrev main_call15_v2 : Ref sig .tc := ⟨.hbm, 137, rfl⟩
abbrev main_v70 : Ref sig .tc := ⟨.hbm, 138, rfl⟩
abbrev main_cst_21 : Ref sig .tc := ⟨.hbm, 139, rfl⟩
abbrev main_v71 : Ref sig .tc := ⟨.hbm, 140, rfl⟩
abbrev main_v72 : Ref sig .tc := ⟨.hbm, 141, rfl⟩
abbrev main_cst_22 : Ref sig .tc := ⟨.hbm, 142, rfl⟩
abbrev main_call16_v0 : Ref sig .tc := ⟨.hbm, 143, rfl⟩
abbrev main_call16_v1 : Ref sig .tc := ⟨.hbm, 144, rfl⟩
abbrev main_call16_v2 : Ref sig .tc := ⟨.hbm, 145, rfl⟩
abbrev main_v73 : Ref sig .tc := ⟨.hbm, 146, rfl⟩
abbrev main_cst_23 : Ref sig .tc := ⟨.hbm, 147, rfl⟩
abbrev main_call17_v0 : Ref sig .tc := ⟨.hbm, 148, rfl⟩
abbrev main_call17_v1 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_cst_24 : Ref sig .tc := ⟨.hbm, 153, rfl⟩
abbrev main_call18_v0 : Ref sig .tc := ⟨.hbm, 154, rfl⟩
abbrev main_call18_v1 : Ref sig .tc := ⟨.hbm, 155, rfl⟩
abbrev main_call18_v2 : Ref sig .tc := ⟨.hbm, 156, rfl⟩
abbrev main_v77 : Ref sig .tc := ⟨.hbm, 157, rfl⟩
abbrev main_cst_25 : Ref sig .tc := ⟨.hbm, 158, rfl⟩
abbrev main_v78 : Ref sig .tc := ⟨.hbm, 159, rfl⟩
abbrev main_v79 : Ref sig .tc := ⟨.hbm, 160, rfl⟩
abbrev main_cst_26 : Ref sig .tc := ⟨.hbm, 161, rfl⟩
abbrev main_call19_v0 : Ref sig .tc := ⟨.hbm, 162, rfl⟩
abbrev main_call19_v1 : Ref sig .tc := ⟨.hbm, 163, rfl⟩
abbrev main_call19_v2 : Ref sig .tc := ⟨.hbm, 164, rfl⟩
abbrev main_v80 : Ref sig .tc := ⟨.hbm, 165, rfl⟩
abbrev main_cst_27 : Ref sig .tc := ⟨.hbm, 166, rfl⟩
abbrev main_call20_v0 : Ref sig .tc := ⟨.hbm, 167, rfl⟩
abbrev main_call20_v1 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_cst_28 : Ref sig .tc := ⟨.hbm, 172, rfl⟩
abbrev main_call21_v0 : Ref sig .tc := ⟨.hbm, 173, rfl⟩
abbrev main_call21_v1 : Ref sig .tc := ⟨.hbm, 174, rfl⟩
abbrev main_call21_v2 : Ref sig .tc := ⟨.hbm, 175, rfl⟩
abbrev main_v84 : Ref sig .tc := ⟨.hbm, 176, rfl⟩
abbrev main_cst_29 : Ref sig .tc := ⟨.hbm, 177, rfl⟩
abbrev main_v85 : Ref sig .tc := ⟨.hbm, 178, rfl⟩
abbrev main_v86 : Ref sig .tc := ⟨.hbm, 179, rfl⟩
abbrev main_cst_30 : Ref sig .tc := ⟨.hbm, 180, rfl⟩
abbrev main_call22_v0 : Ref sig .tc := ⟨.hbm, 181, rfl⟩
abbrev main_call22_v1 : Ref sig .tc := ⟨.hbm, 182, rfl⟩
abbrev main_call22_v2 : Ref sig .tc := ⟨.hbm, 183, rfl⟩
abbrev main_v87 : Ref sig .tc := ⟨.hbm, 184, rfl⟩
abbrev main_cst_31 : Ref sig .tc := ⟨.hbm, 185, rfl⟩
abbrev main_call23_v0 : Ref sig .tc := ⟨.hbm, 186, rfl⟩
abbrev main_call23_v1 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_cst_32 : Ref sig .tc := ⟨.hbm, 191, rfl⟩
abbrev main_call24_v0 : Ref sig .tc := ⟨.hbm, 192, rfl⟩
abbrev main_call24_v1 : Ref sig .tc := ⟨.hbm, 193, rfl⟩
abbrev main_call24_v2 : Ref sig .tc := ⟨.hbm, 194, rfl⟩
abbrev main_v91 : Ref sig .tc := ⟨.hbm, 195, rfl⟩
abbrev main_cst_33 : Ref sig .tc := ⟨.hbm, 196, rfl⟩
abbrev main_v92 : Ref sig .tc := ⟨.hbm, 197, rfl⟩
abbrev main_v93 : Ref sig .tc := ⟨.hbm, 198, rfl⟩
abbrev main_cst_34 : Ref sig .tc := ⟨.hbm, 199, rfl⟩
abbrev main_call25_v0 : Ref sig .tc := ⟨.hbm, 200, rfl⟩
abbrev main_call25_v1 : Ref sig .tc := ⟨.hbm, 201, rfl⟩
abbrev main_call25_v2 : Ref sig .tc := ⟨.hbm, 202, rfl⟩
abbrev main_v94 : Ref sig .tc := ⟨.hbm, 203, rfl⟩
abbrev main_cst_35 : Ref sig .tc := ⟨.hbm, 204, rfl⟩
abbrev main_call26_v0 : Ref sig .tc := ⟨.hbm, 205, rfl⟩
abbrev main_call26_v1 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_cst_36 : Ref sig .tc := ⟨.hbm, 210, rfl⟩
abbrev main_call27_v0 : Ref sig .tc := ⟨.hbm, 211, rfl⟩
abbrev main_call27_v1 : Ref sig .tc := ⟨.hbm, 212, rfl⟩
abbrev main_call27_v2 : Ref sig .tc := ⟨.hbm, 213, rfl⟩
abbrev main_v98 : Ref sig .tc := ⟨.hbm, 214, rfl⟩
abbrev main_cst_37 : Ref sig .tc := ⟨.hbm, 215, rfl⟩
abbrev main_v99 : Ref sig .tc := ⟨.hbm, 216, rfl⟩
abbrev main_v100 : Ref sig .tc := ⟨.hbm, 217, rfl⟩
abbrev main_cst_38 : Ref sig .tc := ⟨.hbm, 218, rfl⟩
abbrev main_call28_v0 : Ref sig .tc := ⟨.hbm, 219, rfl⟩
abbrev main_call28_v1 : Ref sig .tc := ⟨.hbm, 220, rfl⟩
abbrev main_call28_v2 : Ref sig .tc := ⟨.hbm, 221, rfl⟩
abbrev main_v101 : Ref sig .tc := ⟨.hbm, 222, rfl⟩
abbrev main_cst_39 : Ref sig .tc := ⟨.hbm, 223, rfl⟩
abbrev main_call29_v0 : Ref sig .tc := ⟨.hbm, 224, rfl⟩
abbrev main_call29_v1 : Ref sig .tc := ⟨.hbm, 225, rfl⟩
abbrev main_v102 : Ref sig .tc := ⟨.hbm, 226, rfl⟩
abbrev main_v103 : Ref sig .tc := ⟨.hbm, 227, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S128_S128x1_0 : S128.BroadcastsInDim S128x1 (![0] : Fin 1 → Fin S128x1.rank)
  bcast_S1x512_S128x512_0_1 : S1x512.BroadcastsInDim S128x512 (![0, 1] : Fin 2 → Fin S128x512.rank)
  bcast_S128x1_S128x512_0_1 : S128x1.BroadcastsInDim S128x512 (![0, 1] : Fin 2 → Fin S128x512.rank)
  bcast_S128x512_S128x512x1_0_1 : S128x512.BroadcastsInDim S128x512x1 (![0, 1] : Fin 2 → Fin S128x512x1.rank)
  bcast_S128x512_S128x1x512_0_2 : S128x512.BroadcastsInDim S128x1x512 (![0, 2] : Fin 2 → Fin S128x1x512.rank)
  bcast_S128x512x1_S128x512x512_0_1_2 : S128x512x1.BroadcastsInDim S128x512x512 (![0, 1, 2] : Fin 3 → Fin S128x512x512.rank)
  bcast_S128x1x512_S128x512x512_0_1_2 : S128x1x512.BroadcastsInDim S128x512x512 (![0, 1, 2] : Fin 3 → Fin S128x512x512.rank)
  bcast_S_S128x512x512 : S_.BroadcastsInDim S128x512x512 (![] : Fin 0 → Fin S128x512x512.rank)
  reducesTo_S128x512x512_S128x512_d1 : S128x512x512.ReducesTo [1] S128x512
  h_S_ : 0 < S_.numel
  reducesTo_S128x512x512_S128x512_d2 : S128x512x512.ReducesTo [2] S128x512

variable [Facts₀]

class Facts : Prop extends Facts₀ where

variable [Facts]
-- ==== Proof.Sinkhorn.lean ====
/-
  Masked Sinkhorn normalisation on one 512 × 512 tile, over the extended reals.

  A tile is a function of (row, column).  Two index sets are given, `P` (the indices below the
  column count) and `Q` (the indices below the row count).  An even step divides every entry of
  the block `P × P` by the sum of its column over the rows in `P` and zeroes the rest; an odd
  step divides every entry of the block `Q × Q` by the sum of its row over the columns in `Q`
  and zeroes the rest.  The reference writes each step as a quotient `x / d` with the divisor
  masked by the block; the kernel writes it as a product `x · (1 / d)` with the divisor masked by
  the column (row) set alone, and from the third step on sums a whole column (row) without a mask.

  `chain_eq`: on a tile of positive reals, with `Q ⊆ P`, ten alternating steps of either kind
  give the same tile.  Inside a block every divisor is a positive real, where `x / d` and
  `x · (1 / d)` agree; outside, both are zero (`0 · y = 0` for every extended real `y`); the
  entries the reference leaves at its `0 / 0` value after an even step lie in columns outside
  `Q`, which the next odd step masks before it sums and zeroes when it divides; and the
  unmasked sums add only entries that are zero.
-/
import Idealize.ShloMosaic.PureOps.Ideal

noncomputable section

namespace Cert.Sinkhorn

open Idealize.ShloMosaic

/-- A tile: entry (row, column). -/
abbrev Mat := Fin 512 → Fin 512 → EReal

variable (P Q : Fin 512 → Prop) [DecidablePred P] [DecidablePred Q]

/-- The reference's column step on the block `P × P`. -/
def refCol (x : Mat) : Mat := fun r c =>
  Ideal.div (if P r ∧ P c then x r c else 0)
    (if P r ∧ P c then (0 + ∑ k : Fin 512, if P k then x k c else 0) else 1)

/-- The reference's row step on the block `Q × Q`. -/
def refRow (x : Mat) : Mat := fun r c =>
  Ideal.div (if Q r ∧ Q c then x r c else 0)
    (if Q r ∧ Q c then (0 + ∑ k : Fin 512, if Q k then x r k else 0) else 1)

/-- The kernel's first column step: the column sum masked by the rows in `P`. -/
def kerCol0 (x : Mat) : Mat := fun r c =>
  (if P r ∧ P c then x r c else 0) * Ideal.div 1 (if P c then (∑ k : Fin 512, if P k then x k c else 0) else 1)

/-- The kernel's first row step: the row sum masked by the columns in `Q`. -/
def kerRow0 (x : Mat) : Mat := fun r c =>
  (if Q r ∧ Q c then x r c else 0) * Ideal.div 1 (if Q r then (∑ k : Fin 512, if Q k then x r k else 0) else 1)

/-- The kernel's later column steps: the whole column summed. -/
def kerCol (x : Mat) : Mat := fun r c =>
  (if P r ∧ P c then x r c else 0) * Ideal.div 1 (if P c then (∑ k : Fin 512, x k c) else 1)

/-- The kernel's later row steps: the whole row summed. -/
def kerRow (x : Mat) : Mat := fun r c =>
  (if Q r ∧ Q c then x r c else 0) * Ideal.div 1 (if Q r then (∑ k : Fin 512, x r k) else 1)

/-- Ten alternating steps as the reference takes them. -/
def refChain (x : Mat) : Mat :=
  refRow Q (refCol P (refRow Q (refCol P (refRow Q (refCol P (refRow Q (refCol P (refRow Q (refCol P x)))))))))

/-- Ten alternating steps as the kernel takes them. -/
def kerChain (x : Mat) : Mat :=
  kerRow Q (kerCol P (kerRow Q (kerCol P (kerRow Q (kerCol P (kerRow Q (kerCol P (kerRow0 Q (kerCol0 P x)))))))))

/-! ### The quotient on reals -/

theorem div_zero_one : Ideal.div 0 1 = 0 := by
  rw [Ideal.div, if_neg one_ne_zero, zero_mul]

/-- With a positive real divisor the product by the reciprocal is the quotient. -/
theorem mul_div_one (x : EReal) {d : ℝ} (hd : 0 < d) :
    x * Ideal.div 1 (d : EReal) = Ideal.div x (d : EReal) := by
  rw [Ideal.div_coe hd.ne', Ideal.div_coe hd.ne', one_mul]

/-- A quotient of positive reals is a positive real. -/
theorem div_pos_real {a d : ℝ} (ha : 0 < a) (hd : 0 < d) :
    ∃ v : ℝ, 0 < v ∧ Ideal.div (a : EReal) (d : EReal) = (v : EReal) :=
  ⟨a * (1 / d), by positivity, by rw [Ideal.div_coe hd.ne', EReal.coe_mul]⟩

/-! ### Finite sums of reals inside the extended reals -/

/-- A finite sum of coerced reals is the coerced real sum. -/
theorem coe_sum (g : Fin 512 → ℝ) : (∑ k, ((g k : ℝ) : EReal)) = ((∑ k, g k : ℝ) : EReal) := by
  have h : ∀ s : Finset (Fin 512), (∑ k ∈ s, ((g k : ℝ) : EReal)) = ((∑ k ∈ s, g k : ℝ) : EReal) := by
    intro s
    induction s using Finset.induction_on with
    | empty => simp
    | insert a s ha ih => rw [Finset.sum_insert ha, Finset.sum_insert ha, ih, EReal.coe_add]
  exact h _

/-- A sum of non-negative reals, one of them positive, is a positive real. -/
theorem sum_pos_real (f : Fin 512 → EReal) (h0 : ∀ k, ∃ v : ℝ, 0 ≤ v ∧ f k = (v : EReal))
    (k0 : Fin 512) (hk : ∃ v : ℝ, 0 < v ∧ f k0 = (v : EReal)) :
    ∃ V : ℝ, 0 < V ∧ ∑ k, f k = (V : EReal) := by
  choose g hg0 hg using h0
  refine ⟨∑ k, g k, ?_, ?_⟩
  · obtain ⟨v, hv, hfv⟩ := hk
    have hgv : g k0 = v := by
      have h := hg k0
      rw [hfv] at h
      exact_mod_cast h.symm
    exact Finset.sum_pos' (fun k _ => hg0 k) ⟨k0, Finset.mem_univ _, by rw [hgv]; exact hv⟩
  · rw [← coe_sum]
    exact Finset.sum_congr rfl (fun k _ => hg k)

/-- A sum masked by a set on which the terms are positive reals, the set inhabited, is a positive real. -/
theorem masked_sum_pos (S : Fin 512 → Prop) [DecidablePred S] (f : Fin 512 → EReal)
    (hf : ∀ k, S k → ∃ v : ℝ, 0 < v ∧ f k = (v : EReal)) {k0 : Fin 512} (h0 : S k0) :
    ∃ V : ℝ, 0 < V ∧ (∑ k, if S k then f k else 0) = (V : EReal) := by
  refine sum_pos_real (fun k => if S k then f k else 0) ?_ k0 ?_
  · intro k
    by_cases hk : S k
    · obtain ⟨v, hv, h⟩ := hf k hk
      exact ⟨v, hv.le, by simp only [if_pos hk, h]⟩
    · exact ⟨0, le_rfl, by simp only [if_neg hk, EReal.coe_zero]⟩
  · obtain ⟨v, hv, h⟩ := hf k0 h0
    exact ⟨v, hv, by simp only [if_pos h0, h]⟩

/-- A sum whose terms vanish off a set is the sum masked by that set. -/
theorem sum_eq_masked (S : Fin 512 → Prop) [DecidablePred S] (f : Fin 512 → EReal)
    (hout : ∀ k, ¬S k → f k = 0) : ∑ k, f k = ∑ k, if S k then f k else 0 := by
  refine Finset.sum_congr rfl (fun k _ => ?_)
  by_cases h : S k
  · rw [if_pos h]
  · rw [if_neg h, hout k h]

/-! ### One entry of a step -/

/-- The two forms of one entry agree when, inside the block, both divisors are one positive real. -/
theorem entry_eq {b l : Prop} [Decidable b] [Decidable l] (a sk sr : EReal) (hbl : b → l)
    (hs : b → ∃ V : ℝ, 0 < V ∧ sk = (V : EReal) ∧ sr = (V : EReal)) :
    (if b then a else 0) * Ideal.div 1 (if l then sk else 1)
      = Ideal.div (if b then a else 0) (if b then 0 + sr else 1) := by
  by_cases h : b
  · obtain ⟨V, hV, h1, h2⟩ := hs h
    rw [if_pos h, if_pos h, if_pos (hbl h), zero_add, h1, h2]
    exact mul_div_one _ hV
  · rw [if_neg h, if_neg h, zero_mul, div_zero_one]

/-- The quotient form of one entry is a positive real inside the block and zero outside. -/
theorem entry_pos {b : Prop} [Decidable b] (a sr : EReal)
    (ha : b → ∃ v : ℝ, 0 < v ∧ a = (v : EReal)) (hs : b → ∃ V : ℝ, 0 < V ∧ sr = (V : EReal)) :
    (b → ∃ v : ℝ, 0 < v ∧ Ideal.div (if b then a else 0) (if b then 0 + sr else 1) = (v : EReal))
      ∧ (¬b → Ideal.div (if b then a else 0) (if b then 0 + sr else 1) = 0) := by
  constructor
  · intro h
    obtain ⟨v, hv, hav⟩ := ha h
    obtain ⟨V, hV, hsV⟩ := hs h
    rw [if_pos h, if_pos h, zero_add, hav, hsV]
    exact div_pos_real hv hV
  · intro h
    rw [if_neg h, if_neg h]
    exact div_zero_one

/-! ### The invariants -/

/-- Positive reals on the block S × S. -/
def BlockPos (S : Fin 512 → Prop) (y : Mat) : Prop :=
  ∀ r c, S r → S c → ∃ v : ℝ, 0 < v ∧ y r c = (v : EReal)

/-- Positive reals on the block S × S and zero off it. -/
def Pos (S : Fin 512 → Prop) (y : Mat) : Prop :=
  ∀ r c, (S r ∧ S c → ∃ v : ℝ, 0 < v ∧ y r c = (v : EReal)) ∧ (¬(S r ∧ S c) → y r c = 0)

theorem Pos.blockPos {S T : Fin 512 → Prop} {y : Mat} (hy : Pos S y) (hTS : ∀ i, T i → S i) :
    BlockPos T y := fun r c hr hc => (hy r c).1 ⟨hTS r hr, hTS c hc⟩

/-! ### The first two steps: masked sums on both sides -/

theorem kerCol0_eq_refCol {x : Mat} (hx : BlockPos P x) :
    kerCol0 P x = refCol P x ∧ Pos P (refCol P x) := by
  have hsum : ∀ r c, P r ∧ P c →
      ∃ V : ℝ, 0 < V ∧ (∑ k, if P k then x k c else 0) = (V : EReal) := fun r c h =>
    masked_sum_pos P (fun k => x k c) (fun k hk => hx k c hk h.2) h.1
  constructor
  · funext r c
    exact entry_eq _ _ _ (fun h => h.2) (fun h => by
      obtain ⟨V, hV, hs⟩ := hsum r c h
      exact ⟨V, hV, hs, hs⟩)
  · intro r c
    exact entry_pos _ _ (fun h => hx r c h.1 h.2) (hsum r c)

theorem kerRow0_eq_refRow {y : Mat} (hy : BlockPos Q y) :
    kerRow0 Q y = refRow Q y ∧ Pos Q (refRow Q y) := by
  have hsum : ∀ r c, Q r ∧ Q c →
      ∃ V : ℝ, 0 < V ∧ (∑ k, if Q k then y r k else 0) = (V : EReal) := fun r c h =>
    masked_sum_pos Q (fun k => y r k) (fun k hk => hy r k h.1 hk) h.2
  constructor
  · funext r c
    exact entry_eq _ _ _ (fun h => h.1) (fun h => by
      obtain ⟨V, hV, hs⟩ := hsum r c h
      exact ⟨V, hV, hs, hs⟩)
  · intro r c
    exact entry_pos _ _ (fun h => hy r c h.1 h.2) (hsum r c)

/-! ### A later pair of steps: the intermediate tiles differ only in columns outside Q -/

/-- On a tile positive on Q × Q and zero elsewhere, a whole column in Q sums to a positive
    real, and to the same value when masked by P ⊇ Q. -/
theorem colsum_pos (hQP : ∀ i, Q i → P i) {z : Mat} (hz : Pos Q z) {c : Fin 512} (hc : Q c) :
    ∃ V : ℝ, 0 < V ∧ (∑ k, z k c) = (V : EReal)
      ∧ (∑ k, if P k then z k c else 0) = (V : EReal) := by
  have hoffQ : ∀ k, ¬Q k → z k c = 0 := fun k hk => (hz k c).2 (fun h => hk h.1)
  obtain ⟨V, hV, hs⟩ := masked_sum_pos Q (fun k => z k c) (fun k hk => (hz k c).1 ⟨hk, hc⟩) hc
  have h1 : (∑ k, z k c) = (V : EReal) := by
    rw [sum_eq_masked Q (fun k => z k c) hoffQ]; exact hs
  refine ⟨V, hV, h1, ?_⟩
  rw [← sum_eq_masked P (fun k => z k c) (fun k hk => hoffQ k (fun h => hk (hQP k h)))]
  exact h1

/-- The kernel's later column step keeps the tile positive on Q × Q and zero elsewhere. -/
theorem kerCol_pos (hQP : ∀ i, Q i → P i) {z : Mat} (hz : Pos Q z) : Pos Q (kerCol P z) := by
  intro r c
  constructor
  · intro h
    obtain ⟨V, hV, hs, _⟩ := colsum_pos P Q hQP hz h.2
    obtain ⟨a, ha, hza⟩ := (hz r c).1 h
    have hP : P r ∧ P c := ⟨hQP r h.1, hQP c h.2⟩
    show ∃ v : ℝ, 0 < v ∧
      (if P r ∧ P c then z r c else 0) * Ideal.div 1 (if P c then (∑ k, z k c) else 1) = (v : EReal)
    rw [if_pos hP, if_pos hP.2, hs, hza, mul_div_one _ hV]
    exact div_pos_real ha hV
  · intro h
    show (if P r ∧ P c then z r c else 0) * Ideal.div 1 (if P c then (∑ k, z k c) else 1) = 0
    rw [(hz r c).2 h, ite_self, zero_mul]

/-- In the columns of Q the reference's column step gives the kernel's entries. -/
theorem refCol_eq_kerCol (hQP : ∀ i, Q i → P i) {z : Mat} (hz : Pos Q z) (r : Fin 512)
    {c : Fin 512} (hc : Q c) : refCol P z r c = kerCol P z r c := by
  obtain ⟨V, hV, hs, hsm⟩ := colsum_pos P Q hQP hz hc
  exact (entry_eq _ _ _ (fun h => h.2) (fun _ => ⟨V, hV, hs, hsm⟩)).symm

/-- The row step on two tiles that agree in the columns of Q, the kernel's positive on
    Q × Q and zero elsewhere. -/
theorem kerRow_eq_refRow {u w : Mat} (hu : Pos Q u) (hw : ∀ r c, Q c → w r c = u r c) :
    kerRow Q u = refRow Q w ∧ Pos Q (refRow Q w) := by
  have hnum : ∀ r c, (if Q r ∧ Q c then w r c else 0) = (if Q r ∧ Q c then u r c else 0) := by
    intro r c
    by_cases h : Q r ∧ Q c
    · rw [if_pos h, if_pos h, hw r c h.2]
    · rw [if_neg h, if_neg h]
  have hsum : ∀ r c, Q r ∧ Q c → ∃ V : ℝ, 0 < V ∧ (∑ k, u r k) = (V : EReal)
      ∧ (∑ k, if Q k then w r k else 0) = (V : EReal) := by
    intro r c h
    have hoff : ∀ k, ¬Q k → u r k = 0 := fun k hk => (hu r k).2 (fun hh => hk hh.2)
    obtain ⟨V, hV, hs⟩ := masked_sum_pos Q (fun k => u r k) (fun k hk => (hu r k).1 ⟨h.1, hk⟩) h.2
    have hmask : (∑ k, if Q k then w r k else 0) = ∑ k, if Q k then u r k else 0 := by
      refine Finset.sum_congr rfl (fun k _ => ?_)
      by_cases hk : Q k
      · rw [if_pos hk, if_pos hk, hw r k hk]
      · rw [if_neg hk, if_neg hk]
    refine ⟨V, hV, ?_, ?_⟩
    · rw [sum_eq_masked Q (fun k => u r k) hoff]; exact hs
    · rw [hmask]; exact hs
  constructor
  · funext r c
    show (if Q r ∧ Q c then u r c else 0) * Ideal.div 1 (if Q r then (∑ k, u r k) else 1)
      = Ideal.div (if Q r ∧ Q c then w r c else 0)
          (if Q r ∧ Q c then (0 + ∑ k, if Q k then w r k else 0) else 1)
    rw [hnum r c]
    exact entry_eq _ _ _ (fun h => h.1) (hsum r c)
  · intro r c
    show (Q r ∧ Q c → ∃ v : ℝ, 0 < v ∧ Ideal.div (if Q r ∧ Q c then w r c else 0)
          (if Q r ∧ Q c then (0 + ∑ k, if Q k then w r k else 0) else 1) = (v : EReal))
      ∧ (¬(Q r ∧ Q c) → Ideal.div (if Q r ∧ Q c then w r c else 0)
          (if Q r ∧ Q c then (0 + ∑ k, if Q k then w r k else 0) else 1) = 0)
    rw [hnum r c]
    exact entry_pos _ _ (fun h => (hu r c).1 h) (fun h => by
      obtain ⟨V, hV, _, hs⟩ := hsum r c h
      exact ⟨V, hV, hs⟩)

/-- A later column step followed by a row step: the same tile either way. -/
theorem step_pair (hQP : ∀ i, Q i → P i) {z : Mat} (hz : Pos Q z) :
    kerRow Q (kerCol P z) = refRow Q (refCol P z) ∧ Pos Q (refRow Q (refCol P z)) :=
  kerRow_eq_refRow Q (kerCol_pos P Q hQP hz) (fun r _ hc => refCol_eq_kerCol P Q hQP hz r hc)

/-- On a tile of positive reals, with the row block inside the column block, the kernel's ten steps and the
    reference's give the same tile. -/
theorem chain_eq (hQP : ∀ i, Q i → P i) (x : Mat) (hx : ∀ r c, ∃ v : ℝ, 0 < v ∧ x r c = (v : EReal)) :
    kerChain P Q x = refChain P Q x := by
  obtain ⟨e1, p1⟩ := kerCol0_eq_refCol P (x := x) (fun r c _ _ => hx r c)
  obtain ⟨e2, p2⟩ := kerRow0_eq_refRow Q (p1.blockPos hQP)
  obtain ⟨e3, p3⟩ := step_pair P Q hQP p2
  obtain ⟨e4, p4⟩ := step_pair P Q hQP p3
  obtain ⟨e5, p5⟩ := step_pair P Q hQP p4
  obtain ⟨e6, _⟩ := step_pair P Q hQP p5
  unfold kerChain refChain
  rw [e1, e2, e3, e4, e5, e6]

end Cert.Sinkhorn

end
-- ==== Proof.Spec.lean ====
/-
  The result array both programs compute, stated once over the argument arrays.

  For batch element `b` the tile is `s[b] + ε` (`ε` the float literal both programs add), the
  column set `P` the indices below `ncols[b]` and the row set `Q` the indices below `nrows[b]`
  (signed 32-bit comparison of the index with the count), and the result at (b, r, c) is entry
  (r, c) of the tile after ten alternating steps.  `kerG` takes the steps as the kernel does,
  `refG` as the reference does; `kerG_eq_refG` joins them where every entry of `s` is a
  non-negative real and every row set lies inside its column set.
-/
import proofs.«421173_j7550552506671_2_alg».proof.Proof.Sinkhorn
import Idealize.ShloMosaic.Lib.ValueIdx

noncomputable section

namespace Cert.Spec

open Idealize.ShloMosaic Idealize.ShloMosaic.ValueIdx

/-- The shape of the data array and of the result. -/
abbrev A3 : Shape := ⟨3, ![128, 512, 512]⟩
/-- The shape of the two count vectors. -/
abbrev A1 : Shape := ⟨1, ![128]⟩

/-- Index `i` lies below the signed 32-bit count `n`. -/
def below (n : BitVec 32) (i : Fin 512) : Prop := (BitVec.ofNat 32 i.val).slt n = true

instance (n : BitVec 32) : DecidablePred (below n) := fun _ => inferInstanceAs (Decidable (_ = true))

/-- The literal both programs add to every entry before the first step. -/
def eps : EReal := Ideal.ofBits .f32 0x38D1B717#32

/-- It is a positive real. -/
theorem eps_pos : ∃ e : ℝ, 0 < e ∧ eps = (e : EReal) := by
  refine ⟨(13743895 : ℝ) * (2 : ℝ) ^ (-37 : ℤ), by positivity, ?_⟩
  unfold eps
  simp [Ideal.ofBits, Ideal.ieee, -EReal.coe_mul]

/-- Batch element `b`'s tile before the first step. -/
def tileOf (s : A3.Idx → EReal) (b : Fin 128) : Sinkhorn.Mat := fun r c => s (ix3 b r c) + eps

/-- Over non-negative real data every entry of the tile is a positive real. -/
theorem tileOf_pos (s : A3.Idx → EReal) (hpos : ∀ i, ∃ v : ℝ, 0 ≤ v ∧ s i = (v : EReal)) (b : Fin 128)
    (r c : Fin 512) : ∃ v : ℝ, 0 < v ∧ tileOf s b r c = (v : EReal) := by
  obtain ⟨e, he, hee⟩ := eps_pos
  obtain ⟨v, hv, hsv⟩ := hpos (ix3 b r c)
  refine ⟨v + e, by positivity, ?_⟩
  show s (ix3 b r c) + eps = _
  rw [hsv, hee, EReal.coe_add]

/-- The result as the reference computes it. -/
def refG (s : A3.Idx → EReal) (nr nc : A1.Idx → BitVec 32) : A3.Idx → EReal := fun i =>
  Sinkhorn.refChain (below (nc (ix1 (i 0)))) (below (nr (ix1 (i 0)))) (tileOf s (i 0)) (i 1) (i 2)

/-- The result as the kernel computes it. -/
def kerG (s : A3.Idx → EReal) (nr nc : A1.Idx → BitVec 32) : A3.Idx → EReal := fun i =>
  Sinkhorn.kerChain (below (nc (ix1 (i 0)))) (below (nr (ix1 (i 0)))) (tileOf s (i 0)) (i 1) (i 2)

/-- Where the data are non-negative reals and every row set lies in its column set, the two agree. -/
theorem kerG_eq_refG (s : A3.Idx → EReal) (nr nc : A1.Idx → BitVec 32)
    (hpos : ∀ i, ∃ v : ℝ, 0 ≤ v ∧ s i = (v : EReal))
    (hsub : ∀ (b : Fin 128) (i : Fin 512), below (nr (ix1 b)) i → below (nc (ix1 b)) i) :
    kerG s nr nc = refG s nr nc := by
  funext i
  unfold kerG refG
  rw [Sinkhorn.chain_eq _ _ (hsub (i 0)) _ (tileOf_pos s hpos (i 0))]

end Cert.Spec

end
-- ==== Proof.PreFacts.lean ====
/-
  What the precondition says of the argument arrays: every entry of the data array is a
  non-negative real, and for every batch element the indices below its row count lie below its
  column count.
-/
import proofs.«421173_j7550552506671_2_alg».proof.Pre_finite_inputs
import proofs.«421173_j7550552506671_2_alg».proof.Proof.Gen.Pre_finite_inputs
import proofs.«421173_j7550552506671_2_alg».proof.Proof.Spec
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

/-- The scalar shape has one index. -/
instance : Subsingleton S_.Idx := ⟨fun _ _ => funext fun d => d.elim0⟩

/-- The literal of the finiteness test is `+∞`. -/
theorem ofBits_inf : Ideal.ofBits .f32 0x7F800000#32 = ⊤ := by simp [Ideal.ofBits, Ideal.ieee]

/-- An extended real whose absolute value lies below `+∞` and which is at least 0 is a non-negative real:
    the first test excludes both infinities, the second gives the sign. -/
theorem nonneg_real_of (x : EReal) (h1 : Ideal.cmp .olt (max x (-x)) ⊤ = 1#1) (h2 : Ideal.cmp .oge x 0 = 1#1) :
    ∃ v : ℝ, 0 ≤ v ∧ x = (v : EReal) := by
  simp only [Ideal.cmp, StableHlo.Predicate.ofBool_eq_one_iff, decide_eq_true_eq] at h1 h2
  induction x using EReal.rec with
  | bot => simp at h2
  | top => simp at h1
  | coe v => exact ⟨v, EReal.coe_nonneg.1 h2, rfl⟩

/-- The test on one pair of counts: `a ≤ c`, or `a ≤ 0`, or `c ≥ 512` (signed) puts every index of the tile
    below `a` below `c`. In the first case by transitivity; in the second no index is below `a`; in the third
    every index, being below 512, is below `c`. -/
theorem below_of (a c : BitVec 32) (i : Fin 512)
    (h : IntOp.ori (IntOp.ori (IntOp.cmpi .sle a c) (IntOp.cmpi .sle a 0#32)) (IntOp.cmpi .sge c 512#32) = 1#1) :
    Spec.below a i → Spec.below c i := by
  unfold Spec.below
  rw [IntOp.ori_eq_one, IntOp.ori_eq_one] at h
  simp only [IntOp.cmpi, StableHlo.Predicate.ofBool_eq_one_iff] at h
  have hi := StableHlo.Predicate.toInt_ofNat_small i.val (by omega)
  have e0 : (0#32).toInt = 0 := by decide
  have e512 : (512#32).toInt = 512 := by decide
  simp only [BitVec.slt, BitVec.sle, decide_eq_true_eq] at h ⊢
  rw [hi]
  omega

variable [Cert.Pre_finite_inputs.Facts]

/-- The precondition read off: finiteness and the sign test make every entry a non-negative real; the
    test on the counts (`nrows ≤ ncols`, or `nrows ≤ 0`, or `ncols ≥ 512`, each signed) puts every index
    of the tile that is below the row count below the column count. -/
theorem of_pre (s : FVec Ideal S128x512x512 .f32) (nr nc : IVec S128 32)
    (h : Cert.Pre_finite_inputs.fn (F := Ideal) s nr nc = fun _ => 1#1) :
    (∀ i : S128x512x512.Idx, ∃ v : ℝ, 0 ≤ v ∧ s i = (v : EReal))
    ∧ (∀ (b : Fin 128) (i : Fin 512), Spec.below (nr (ix1 b)) i → Spec.below (nc (ix1 b)) i) := by
  have h0 := congrFun h ix0
  dsimp only [fn] at h0
  obtain ⟨h01, h3⟩ := IntOp.andi_eq_one.1 h0
  obtain ⟨h1, h2⟩ := IntOp.andi_eq_one.1 h01
  refine ⟨fun i => ?_, fun b i => ?_⟩
  · have e1 := Host.reduce_andi_all _ _ _ _ _ h1 i
    have e2 := Host.reduce_andi_all _ _ _ _ _ h2 i
    rw [cmpf_apply, StableHlo.Predicate.bcast_scalar _ Facts.h_S_, constant_apply, ofBits_inf] at e1
    rw [cmpf_apply, StableHlo.Predicate.bcast_scalar _ Facts.h_S_, constant_apply, Ideal.ofBits_zero_f32] at e2
    exact nonneg_real_of (s i) e1 e2
  · have e3 := Host.reduce_andi_all _ _ _ _ _ h3 (ix1 b)
    exact below_of (nr (ix1 b)) (nc (ix1 b)) i e3

end Cert.PreFacts

end
-- ==== Proof.KerSteps.lean ====
/-
  The kernel's steps on a 512 × 512 tile, as whole-tile operations, and what each is entry by entry.

  A column step scales the entries of a block by the reciprocal of a per-column divisor (the
  column sum where the column is inside, one elsewhere); a row step does the same along rows.
  The summand `y` is passed apart from the scaled tile `x`: the first two steps sum a masked copy,
  the later ones the tile itself.  Read at an index over the extended reals these are the steps
  of `Cert.Sinkhorn`.
-/
import proofs.«421173_j7550552506671_2_alg».proof.Proof.Gen.KernelIdeal.Skeleton
import proofs.«421173_j7550552506671_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

variable {F : FTy → Type} [FloatOps F]

/-- The tile with everything outside the mask set to zero. -/
def zsel (mk : IVec S512x512 1) (x : FVec F S512x512 .f32) : FVec F S512x512 .f32 :=
  select mk x (broadcast S512x512 (Scalar.ofBits .f32 0x00000000#32 : F .f32))

/-- The loaded [1, 512, 512] block as a tile, with the literal added to every entry. -/
def start (x : Vec F S1x512x512 .f32) : FVec F S512x512 .f32 :=
  addf (shapeCast S512x512 x shapeCasts_S1x512x512_S512x512) (broadcast S512x512 (Scalar.ofBits .f32 0x38D1B717#32 : F .f32))

/-- A column step: `x` inside the block mask `mb`, times the reciprocal of the column sums of `y` where the
    column mask `mv` is set and of one elsewhere. -/
def colStep (mb : IVec S512x512 1) (mv : IVec S1x512 1) (y x : FVec F S512x512 .f32) : FVec F S512x512 .f32 :=
  mulf (select mb x (broadcast S512x512 (Scalar.ofBits .f32 0x00000000#32 : F .f32)))
    (broadcastTo S512x512
      (divf (broadcast S1x512 (Scalar.ofBits .f32 0x3F800000#32 : F .f32))
        (select mv
          (shapeCast S1x512 (multiReduction .add [0] S512 y 0x00000000#32 reduces_S512x512_S512 (.inl rfl) rfl) shapeCasts_S512_S1x512)
          (broadcast S1x512 (Scalar.ofBits .f32 0x3F800000#32 : F .f32))))
      broadcasts_S1x512_S512x512)

/-- A row step, the same along rows. -/
def rowStep (mb : IVec S512x512 1) (mv : IVec S512x1 1) (y x : FVec F S512x512 .f32) : FVec F S512x512 .f32 :=
  mulf (select mb x (broadcast S512x512 (Scalar.ofBits .f32 0x00000000#32 : F .f32)))
    (broadcastTo S512x512
      (divf (broadcast S512x1 (Scalar.ofBits .f32 0x3F800000#32 : F .f32))
        (select mv
          (shapeCast S512x1 (multiReduction .add [1] S512 y 0x00000000#32 reduces_S512x512_S512_2 (.inl rfl) rfl) shapeCasts_S512_S512x1)
          (broadcast S512x1 (Scalar.ofBits .f32 0x3F800000#32 : F .f32))))
      broadcasts_S512x1_S512x512)

/-- The four masks of one batch element, from the row count `nr` and the column count `nc`:
    row index below `n`, column index below `n`, both, and the two thin ones. -/
def rowLt (n : BitVec 32) : IVec S512x512 1 :=
  cmpi .slt (iota .tc S512x512 32 [0] iota_S512x512_d0_w32) (broadcast S512x512 n)
def colLt (n : BitVec 32) : IVec S512x512 1 :=
  cmpi .slt (iota .tc S512x512 32 [1] iota_S512x512_d1_w32) (broadcast S512x512 n)
def blockLt (n : BitVec 32) : IVec S512x512 1 := andi (rowLt n) (colLt n)
def colVecLt (n : BitVec 32) : IVec S1x512 1 :=
  cmpi .slt (iota .tc S1x512 32 [1] iota_S1x512_d1_w32) (broadcast S1x512 n)
def rowVecLt (n : BitVec 32) : IVec S512x1 1 :=
  cmpi .slt (iota .tc S512x1 32 [0] iota_S512x1_d0_w32) (broadcast S512x1 n)

/-- A tile as a function of (row, column). -/
def toMat (v : FVec Ideal S512x512 .f32) : Sinkhorn.Mat := fun r c => v (ix2 r c)

/-! ## Small readings: a decided bit, the literals, the layouts, the lane sums -/

/-- A bit made from a boolean is one exactly when the boolean is true. -/
theorem ofBool_eq_one (b : Bool) : BitVec.ofBool b = 1#1 ↔ b = true := by cases b <;> decide

/-- The pattern 0x3F800000 is the real one. -/
theorem ofBits_one_f32 : Ideal.ofBits .f32 0x3F800000#32 = 1 := by
  simp [Ideal.ofBits, Ideal.ieee, -EReal.coe_mul]; norm_num

/-- An [a] vector cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows, at column c. -/
theorem colSum_apply (y : FVec Ideal S512x512 .f32) (c : Fin 512) :
    multiReduction (F := Ideal) .add [0] S512 y 0x00000000#32 reduces_S512x512_S512 (.inl rfl) rfl (ix1 c)
      = ∑ k : Fin 512, y (ix2 k c) := by
  refine (Ideal.multiReduction_add_single y 0x00000000#32 reduces_S512x512_S512 (.inl rfl) rfl (ix1 c)).trans ?_
  refine Finset.sum_congr rfl fun k _ => congrArg y ?_
  funext a
  match a with
  | ⟨0, _⟩ => rfl
  | ⟨1, _⟩ => rfl

/-- The sum over the columns, at row r. -/
theorem rowSum_apply (y : FVec Ideal S512x512 .f32) (r : Fin 512) :
    multiReduction (F := Ideal) .add [1] S512 y 0x00000000#32 reduces_S512x512_S512_2 (.inl rfl) rfl (ix1 r)
      = ∑ k : Fin 512, y (ix2 r k) := by
  refine (Ideal.multiReduction_add_single y 0x00000000#32 reduces_S512x512_S512_2 (.inl rfl) rfl (ix1 r)).trans ?_
  refine Finset.sum_congr rfl fun k _ => congrArg y ?_
  funext a
  match a with
  | ⟨0, _⟩ => rfl
  | ⟨1, _⟩ => rfl

/-! ## The masks at an index -/

theorem rowLt_apply (n : BitVec 32) (r c : Fin 512) : rowLt n (ix2 r c) = 1#1 ↔ Spec.below n r := by
  unfold rowLt Spec.below
  show BitVec.ofBool ((iota .tc S512x512 32 [0] iota_S512x512_d0_w32 (ix2 r c)).slt n) = 1#1 ↔ _
  rw [iota_single_apply]
  exact ofBool_eq_one _
theorem colLt_apply (n : BitVec 32) (r c : Fin 512) : colLt n (ix2 r c) = 1#1 ↔ Spec.below n c := by
  unfold colLt Spec.below
  show BitVec.ofBool ((iota .tc S512x512 32 [1] iota_S512x512_d1_w32 (ix2 r c)).slt n) = 1#1 ↔ _
  rw [iota_single_apply]
  exact ofBool_eq_one _
theorem blockLt_apply (n : BitVec 32) (r c : Fin 512) : blockLt n (ix2 r c) = 1#1 ↔ (Spec.below n r ∧ Spec.below n c) := by
  rw [← rowLt_apply n r c, ← colLt_apply n r c]
  show (rowLt n (ix2 r c) &&& colLt n (ix2 r c)) = 1#1 ↔ _
  rcases BitVec.eq_zero_or_eq_one (rowLt n (ix2 r c)) with h | h <;>
    rcases BitVec.eq_zero_or_eq_one (colLt n (ix2 r c)) with h' | h' <;> rw [h, h'] <;> decide
theorem colVecLt_apply (n : BitVec 32) (c : Fin 512) : colVecLt n (ix2 0 c) = 1#1 ↔ Spec.below n c := by
  unfold colVecLt Spec.below
  show BitVec.ofBool ((iota .tc S1x512 32 [1] iota_S1x512_d1_w32 (ix2 0 c)).slt n) = 1#1 ↔ _
  rw [iota_single_apply]
  exact ofBool_eq_one _
theorem rowVecLt_apply (n : BitVec 32) (r : Fin 512) : rowVecLt n (ix2 r 0) = 1#1 ↔ Spec.below n r := by
  unfold rowVecLt Spec.below
  show BitVec.ofBool ((iota .tc S512x1 32 [0] iota_S512x1_d0_w32 (ix2 r 0)).slt n) = 1#1 ↔ _
  rw [iota_single_apply]
  exact ofBool_eq_one _

/-! ## The steps at an index -/

theorem start_mat (x : Vec Ideal S1x512x512 .f32) :
    toMat (start (F := Ideal) x) = fun r c => x (ix3 0 r c) + Spec.eps := by
  funext r c
  unfold toMat start Spec.eps
  show shapeCast S512x512 x shapeCasts_S1x512x512_S512x512 (ix2 r c) + Ideal.ofBits .f32 0x38D1B717#32 = _
  rw [shapeCast_1ab_ab_apply]

theorem zsel_mat (M : Fin 512 → Fin 512 → Prop) [∀ r c, Decidable (M r c)] (mk : IVec S512x512 1)
    (hmk : ∀ r c, mk (ix2 r c) = 1#1 ↔ M r c) (x : FVec Ideal S512x512 .f32) :
    toMat (zsel mk x) = fun r c => if M r c then toMat x r c else 0 := by
  funext r c
  unfold toMat zsel
  show Scalar.select (mk (ix2 r c)) (x (ix2 r c)) (Ideal.ofBits .f32 0x00000000#32) = _
  rw [Ideal.ofBits_zero_f32]
  by_cases hM : M r c
  · rw [(hmk r c).mpr hM, select_one, if_pos hM]
  · rw [eq_zero_of_ne_one (fun h => hM ((hmk r c).mp h)), select_zero, if_neg hM]

/-- A select on a bit that decides a proposition is the if on that proposition. -/
theorem select_eq_ite {α : Type} (b : BitVec 1) (p : Prop) [Decidable p] (h : b = 1#1 ↔ p) (u v : α) :
    Scalar.select b u v = if p then u else v := by
  by_cases hp : p
  · rw [h.mpr hp, select_one, if_pos hp]
  · rw [eq_zero_of_ne_one (fun hb => hp (h.mp hb)), select_zero, if_neg hp]

/-- The reciprocal of the column divisor, spread over the rows: at (r, c) it is one over the
    column sum of y where the column bit is set, and one over one elsewhere. -/
theorem colRecip_apply (mv : IVec S1x512 1) (y : FVec Ideal S512x512 .f32) (r c : Fin 512) :
    broadcastTo S512x512
      (divf (broadcast S1x512 (Scalar.ofBits .f32 0x3F800000#32 : Ideal .f32))
        (select mv
          (shapeCast S1x512 (multiReduction (F := Ideal) .add [0] S512 y 0x00000000#32 reduces_S512x512_S512 (.inl rfl) rfl) shapeCasts_S512_S1x512)
          (broadcast S1x512 (Scalar.ofBits .f32 0x3F800000#32 : Ideal .f32))))
      broadcasts_S1x512_S512x512 (ix2 r c)
      = Ideal.div 1 (Scalar.select (mv (ix2 0 c)) (∑ k : Fin 512, y (ix2 k c)) 1) := by
  rw [broadcastTo_1b_ab_apply]
  show Ideal.div (Ideal.ofBits .f32 0x3F800000#32)
    (Scalar.select (mv (ix2 0 c))
      (shapeCast S1x512 (multiReduction (F := Ideal) .add [0] S512 y 0x00000000#32 reduces_S512x512_S512 (.inl rfl) rfl) shapeCasts_S512_S1x512 (ix2 0 c))
      (Ideal.ofBits .f32 0x3F800000#32)) = _
  rw [shapeCast_a_1a_apply, colSum_apply, ofBits_one_f32]

/-- The same along rows. -/
theorem rowRecip_apply (mv : IVec S512x1 1) (y : FVec Ideal S512x512 .f32) (r c : Fin 512) :
    broadcastTo S512x512
      (divf (broadcast S512x1 (Scalar.ofBits .f32 0x3F800000#32 : Ideal .f32))
        (select mv
          (shapeCast S512x1 (multiReduction (F := Ideal) .add [1] S512 y 0x00000000#32 reduces_S512x512_S512_2 (.inl rfl) rfl) shapeCasts_S512_S512x1)
          (broadcast S512x1 (Scalar.ofBits .f32 0x3F800000#32 : Ideal .f32))))
      broadcasts_S512x1_S512x512 (ix2 r c)
      = Ideal.div 1 (Scalar.select (mv (ix2 r 0)) (∑ k : Fin 512, y (ix2 r k)) 1) := by
  rw [broadcastTo_a1_ab_apply]
  show Ideal.div (Ideal.ofBits .f32 0x3F800000#32)
    (Scalar.select (mv (ix2 r 0))
      (shapeCast S512x1 (multiReduction (F := Ideal) .add [1] S512 y 0x00000000#32 reduces_S512x512_S512_2 (.inl rfl) rfl) shapeCasts_S512_S512x1 (ix2 r 0))
      (Ideal.ofBits .f32 0x3F800000#32)) = _
  rw [shapeCast_a_a1_apply, rowSum_apply, ofBits_one_f32]

theorem colStep_mat (P : Fin 512 → Prop) [DecidablePred P] (mb : IVec S512x512 1) (mv : IVec S1x512 1)
    (hmb : ∀ r c, mb (ix2 r c) = 1#1 ↔ (P r ∧ P c)) (hmv : ∀ c, mv (ix2 0 c) = 1#1 ↔ P c)
    (y x : FVec Ideal S512x512 .f32) :
    toMat (colStep mb mv y x) = fun r c =>
      (if P r ∧ P c then toMat x r c else 0) * Ideal.div 1 (if P c then (∑ k : Fin 512, toMat y k c) else 1) := by
  funext r c
  unfold toMat colStep
  show Scalar.select (mb (ix2 r c)) (x (ix2 r c)) (Ideal.ofBits .f32 0x00000000#32) * _ = _
  rw [colRecip_apply, Ideal.ofBits_zero_f32, select_eq_ite _ _ (hmb r c), select_eq_ite _ _ (hmv c)]

theorem rowStep_mat (Q : Fin 512 → Prop) [DecidablePred Q] (mb : IVec S512x512 1) (mv : IVec S512x1 1)
    (hmb : ∀ r c, mb (ix2 r c) = 1#1 ↔ (Q r ∧ Q c)) (hmv : ∀ r, mv (ix2 r 0) = 1#1 ↔ Q r)
    (y x : FVec Ideal S512x512 .f32) :
    toMat (rowStep mb mv y x) = fun r c =>
      (if Q r ∧ Q c then toMat x r c else 0) * Ideal.div 1 (if Q r then (∑ k : Fin 512, toMat y r k) else 1) := by
  funext r c
  unfold toMat rowStep
  show Scalar.select (mb (ix2 r c)) (x (ix2 r c)) (Ideal.ofBits .f32 0x00000000#32) * _ = _
  rw [rowRecip_apply, Ideal.ofBits_zero_f32, select_eq_ite _ _ (hmb r c), select_eq_ite _ _ (hmv r)]

end Cert.KernelIdeal.Tile

end
-- ==== Proof.KerTile.lean ====
/-
  What the kernel stores for each of the two batch elements of a grid point, as one function of the
  two counts and the loaded block, and that function entry by entry: ten alternating steps of
  `Cert.Sinkhorn` on the block plus the literal.
-/
import proofs.«421173_j7550552506671_2_alg».proof.Proof.KerSteps

noncomputable section

namespace Cert.KernelIdeal.Tile

open Cert.KernelIdeal Cert.KernelIdeal.Gen Idealize.ShloMosaic Idealize.ShloMosaic.ValueIdx

variable {F : FTy → Type} [FloatOps F]

/-- The value stored for the first batch element of a grid point: the stored payload over the
    payloads before it, down to the two loaded counts and the loaded block. -/
def tile0 (nr nc : Elt F .i32) (x : Vec F S1x512x512 .f32) : FVec F S1x512x512 .f32 :=
  k0_pay17
    (k0_pay15 (k0_pay4 (F := F) nc) (k0_pay5 (F := F) nr) (k0_pay6 (F := F) nc) (k0_pay7 (F := F) nr)
      (k0_pay12 (k0_pay4 (F := F) nc) (k0_pay5 (F := F) nr) (k0_pay6 (F := F) nc) (k0_pay7 (F := F) nr) (k0_pay8 nc x) (k0_pay9 nr nc x) (k0_pay10 (F := F)))
      (k0_pay13 (k0_pay4 (F := F) nc) (k0_pay5 (F := F) nr) (k0_pay6 (F := F) nc) (k0_pay7 (F := F) nr) (k0_pay8 nc x) (k0_pay9 nr nc x) (k0_pay10 (F := F))))
    (k0_pay16 (k0_pay4 (F := F) nc) (k0_pay5 (F := F) nr) (k0_pay6 (F := F) nc) (k0_pay7 (F := F) nr)
      (k0_pay12 (k0_pay4 (F := F) nc) (k0_pay5 (F := F) nr) (k0_pay6 (F := F) nc) (k0_pay7 (F := F) nr) (k0_pay8 nc x) (k0_pay9 nr nc x) (k0_pay10 (F := F)))
      (k0_pay13 (k0_pay4 (F := F) nc) (k0_pay5 (F := F) nr) (k0_pay6 (F := F) nc) (k0_pay7 (F := F) nr) (k0_pay8 nc x) (k0_pay9 nr nc x) (k0_pay10 (F := F))))

/-- The four index vectors the second batch element's masks are made from. -/
abbrev io0 : IVec S512x512 32 := iota .tc S512x512 32 [0] iota_S512x512_d0_w32
abbrev io1 : IVec S512x512 32 := iota .tc S512x512 32 [1] iota_S512x512_d1_w32
abbrev io2 : IVec S512x1 32 := iota .tc S512x1 32 [0] iota_S512x1_d0_w32
abbrev io3 : IVec S1x512 32 := iota .tc S1x512 32 [1] iota_S1x512_d1_w32

/-- The value stored for the second batch element of a grid point. -/
def tile1 (nr nc : Elt F .i32) (x : Vec F S1x512x512 .f32) : FVec F S1x512x512 .f32 :=
  k0_pay1
    (k0_pay29 (k0_pay20 (F := F) io0 io1 nc) (k0_pay21 (F := F) io0 io1 nr) (k0_pay22 (F := F) io3 nc) (k0_pay23 (F := F) io2 nr)
      (k0_pay26 (k0_pay20 (F := F) io0 io1 nc) (k0_pay21 (F := F) io0 io1 nr) (k0_pay22 (F := F) io3 nc) (k0_pay23 (F := F) io2 nr) (k0_pay24 io0 io1 io3 nc x) (k0_pay25 io0 io1 io3 nr nc x))
      (k0_pay27 (k0_pay20 (F := F) io0 io1 nc) (k0_pay21 (F := F) io0 io1 nr) (k0_pay22 (F := F) io3 nc) (k0_pay23 (F := F) io2 nr) (k0_pay24 io0 io1 io3 nc x) (k0_pay25 io0 io1 io3 nr nc x)))
    (k0_pay30 (k0_pay20 (F := F) io0 io1 nc) (k0_pay21 (F := F) io0 io1 nr) (k0_pay22 (F := F) io3 nc) (k0_pay23 (F := F) io2 nr)
      (k0_pay26 (k0_pay20 (F := F) io0 io1 nc) (k0_pay21 (F := F) io0 io1 nr) (k0_pay22 (F := F) io3 nc) (k0_pay23 (F := F) io2 nr) (k0_pay24 io0 io1 io3 nc x) (k0_pay25 io0 io1 io3 nr nc x))
      (k0_pay27 (k0_pay20 (F := F) io0 io1 nc) (k0_pay21 (F := F) io0 io1 nr) (k0_pay22 (F := F) io3 nc) (k0_pay23 (F := F) io2 nr) (k0_pay24 io0 io1 io3 nc x) (k0_pay25 io0 io1 io3 nr nc x)))
    (Scalar.ofBits .f32 0x3F800000#32)

/-! ## The two stored values as ten whole-tile steps -/

/-- A later column step: the tile scaled by its own column sums. -/
def colS (nc : BitVec 32) (T : FVec F S512x512 .f32) : FVec F S512x512 .f32 :=
  colStep (blockLt nc) (colVecLt nc) T T

/-- A later row step: the tile scaled by its own row sums. -/
def rowS (nr : BitVec 32) (T : FVec F S512x512 .f32) : FVec F S512x512 .f32 :=
  rowStep (blockLt nr) (rowVecLt nr) T T

/-- The first column step: the sums run over the rows below `nc` only. -/
def colS0 (nc : BitVec 32) (X : FVec F S512x512 .f32) : FVec F S512x512 .f32 :=
  colStep (blockLt nc) (colVecLt nc) (zsel (rowLt nc) X) X

/-- The first row step: the sums run over the columns below `nr` only. -/
def rowS0 (nr : BitVec 32) (T : FVec F S512x512 .f32) : FVec F S512x512 .f32 :=
  rowStep (blockLt nr) (rowVecLt nr) (zsel (colLt nr) T) T

/-- The ten steps on the loaded block plus the literal. -/
def tenSteps (nr nc : BitVec 32) (x : Vec F S1x512x512 .f32) : FVec F S512x512 .f32 :=
  rowS nr (colS nc (rowS nr (colS nc (rowS nr (colS nc (rowS nr (colS nc (rowS0 nr (colS0 nc (start x))))))))))

set_option maxRecDepth 65536 in
/-- The first stored value is the ten steps, cast back to a [1, 512, 512] block. -/
theorem tile0_eq (nr nc : BitVec 32) (x : Vec F S1x512x512 .f32) :
    tile0 nr nc x = shapeCast S1x512x512 (tenSteps nr nc x) shapeCasts_S512x512_S1x512x512 := rfl

set_option maxRecDepth 65536 in
/-- So is the second. -/
theorem tile1_eq (nr nc : BitVec 32) (x : Vec F S1x512x512 .f32) :
    tile1 nr nc x = shapeCast S1x512x512 (tenSteps nr nc x) shapeCasts_S512x512_S1x512x512 := rfl

/-! ## The steps entry by entry -/

/-- A later column step, entry by entry, is the kernel's column step of `Cert.Sinkhorn`. -/
theorem colS_mat (nc : BitVec 32) (T : FVec Ideal S512x512 .f32) :
    toMat (colS nc T) = Sinkhorn.kerCol (Spec.below nc) (toMat T) :=
  colStep_mat (Spec.below nc) (blockLt nc) (colVecLt nc) (blockLt_apply nc) (colVecLt_apply nc) T T

/-- A later row step, entry by entry, is the kernel's row step. -/
theorem rowS_mat (nr : BitVec 32) (T : FVec Ideal S512x512 .f32) :
    toMat (rowS nr T) = Sinkhorn.kerRow (Spec.below nr) (toMat T) :=
  rowStep_mat (Spec.below nr) (blockLt nr) (rowVecLt nr) (blockLt_apply nr) (rowVecLt_apply nr) T T

/-- The first column step: its sums are masked by the rows below `nc`. -/
theorem colS0_mat (nc : BitVec 32) (X : FVec Ideal S512x512 .f32) :
    toMat (colS0 nc X) = Sinkhorn.kerCol0 (Spec.below nc) (toMat X) := by
  unfold colS0
  rw [colStep_mat (Spec.below nc) (blockLt nc) (colVecLt nc) (blockLt_apply nc) (colVecLt_apply nc),
    zsel_mat (fun r _ => Spec.below nc r) (rowLt nc) (rowLt_apply nc)]
  rfl

/-- The first row step: its sums are masked by the columns below `nr`. -/
theorem rowS0_mat (nr : BitVec 32) (T : FVec Ideal S512x512 .f32) :
    toMat (rowS0 nr T) = Sinkhorn.kerRow0 (Spec.below nr) (toMat T) := by
  unfold rowS0
  rw [rowStep_mat (Spec.below nr) (blockLt nr) (rowVecLt nr) (blockLt_apply nr) (rowVecLt_apply nr),
    zsel_mat (fun _ c => Spec.below nr c) (colLt nr) (colLt_apply nr)]
  rfl

/-- The ten steps, entry by entry, are the kernel's chain on the block plus the literal. -/
theorem tenSteps_mat (nr nc : BitVec 32) (x : Vec Ideal S1x512x512 .f32) :
    toMat (tenSteps nr nc x)
      = Sinkhorn.kerChain (Spec.below nc) (Spec.below nr) (fun r c => x (ix3 0 r c) + Spec.eps) := by
  unfold tenSteps Sinkhorn.kerChain
  rw [rowS_mat, colS_mat, rowS_mat, colS_mat, rowS_mat, colS_mat, rowS_mat, colS_mat, rowS0_mat, colS0_mat,
    start_mat]

/-- A [512, 512] tile cast to a [1, 512, 512] block reads, at (0, r, c), entry (r, c) of the tile. -/
theorem tileCast_apply (T : FVec Ideal S512x512 .f32) (r c : Fin 512) :
    shapeCast S1x512x512 T shapeCasts_S512x512_S1x512x512 (ix3 0 r c) = toMat T r c :=
  shapeCast_ab_1ab_apply T shapeCasts_S512x512_S1x512x512 0 r c

/-- Entry (r, c) of the first stored value: ten kernel steps on the block plus the literal, with the column set the
    indices below `nc` and the row set those below `nr`. -/
theorem tile0_apply (nr nc : BitVec 32) (x : Vec Ideal S1x512x512 .f32) (r c : Fin 512) :
    tile0 (F := Ideal) nr nc x (ix3 0 r c)
      = Sinkhorn.kerChain (Spec.below nc) (Spec.below nr) (fun r c => x (ix3 0 r c) + Spec.eps) r c := by
  rw [tile0_eq, tileCast_apply, tenSteps_mat]

/-- The same for the second stored value. -/
theorem tile1_apply (nr nc : BitVec 32) (x : Vec Ideal S1x512x512 .f32) (r c : Fin 512) :
    tile1 (F := Ideal) nr nc x (ix3 0 r c)
      = Sinkhorn.kerChain (Spec.below nc) (Spec.below nr) (fun r c => x (ix3 0 r c) + Spec.eps) r c := by
  rw [tile1_eq, tileCast_apply, tenSteps_mat]

end Cert.KernelIdeal.Tile

end
-- ==== Proof.KerValue.lean ====
/-
  The kernel's run with its result named: every weakly fair execution ends with the result array at
  `Spec.kerG` of the argument arrays, and the arguments unchanged.

  Grid point `t` stages the two tiles `2t` and `2t + 1` of the data, reads the two counts of each
  from the count vectors at `2t` and `2t + 1`, and writes the two stored tiles back to the same
  two places of the result; the sixty-four points cover the 128 tiles.
-/
import proofs.«421173_j7550552506671_2_alg».proof.Proof.Gen.KernelIdeal.Frame
import proofs.«421173_j7550552506671_2_alg».proof.Proof.KerTile
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open Idealize.ShloMosaic.Tactic

namespace Cert.KernelIdeal.KValue

open Cert.KernelIdeal Cert.KernelIdeal.Gen

section Body

variable {F : FTy → Type} [FloatOps F]

/-! ## What the body leaves in the result's staging buffer -/

/-- The two rectangles the body loads and stores through: slab `j` of a staging buffer. -/
abbrev slab0 : Rect S2x512x512 := Rect.unit ![0, 0, 0] S1x512x512.size inb_S2x512x512_S1x512x512_0_0_0
abbrev slab1 : Rect S2x512x512 := Rect.unit ![1, 0, 0] S1x512x512.size inb_S2x512x512_S1x512x512_1_0_0

/-- The word of a count vector the body loads at offset `off`. -/
abbrev wordAt (c : Dev nD) (M : Memref sig .tc .smem S128 .i32) (xt : TbBuf0 (F := F) c M) (off : Fin 1 → Nat)
    (inb : ∀ a, off a + S1.size a ≤ S128.size a) : Elt F .i32 :=
  View.readAt (Elt F) M.view (Rect.unit (s := S128) off S1.size inb).toLoadRect xt (Shape.Idx.first (numel1_S1.symm ▸ Nat.one_pos))

set_option maxRecDepth 65536 in
/-- The body's two stores: slab 1 then slab 0, each the stored tile of the two counts loaded for it and of the slab of the
    data block loaded for it. -/
theorem body_canon (c : Dev nD) (i : grid0.Coords) (a3 : Memref sig .tc .vmem S2x512x512 .f32) (h3 : a3.IsWhole) (a4 : Memref sig .tc .vmem S2x512x512 .f32) (h4 : a4.IsWhole)
    (x0 : Vec F S2x512x512 .f32) (xt0 : TbBuf0 (F := F) c tbM0_0) (xt1 : TbBuf0 (F := F) c tbM0_1) :
    out0_A_1 c i a3 h3 a4 h4 x0 xt0 xt1
      = View.canon [⟨slab1, Tile.tile1 (wordAt c tbM0_0 xt0 (k0_off1 i 1#32) (k0_off1_inb i 1)) (wordAt c tbM0_1 xt1 (k0_off1 i 1#32) (k0_off1_inb i 1)) (View.ld x0 slab1)⟩,
          ⟨slab0, Tile.tile0 (wordAt c tbM0_0 xt0 (k0_off1 i 0#32) (k0_off1_inb i 0)) (wordAt c tbM0_1 xt1 (k0_off1 i 0#32) (k0_off1_inb i 0)) (View.ld x0 slab0)⟩] := by
  unfold out0_A_1
  rw [View.read_writes_eq_canon _ _ _ (cover0_A_1 c i a3 h3 a4 h4 x0 xt0 xt1)]
  unfold kernelRun0_A
  dsimp only
  sl_unfold_run_names
  simp only [View.readAt_eq_ld a3.view, h3.read_unread]
  rfl

/-- Entry (0, r, q) of slab `j` sits at (j, r, q) of the buffer: the slab's offset plus one times the coordinate. -/
theorem slab_emb (off : Fin 3 → Nat) (j : Fin 2) (hoff : off = ![j.val, 0, 0])
    (inb : ∀ a, off a + S1x512x512.size a ≤ S2x512x512.size a) (r q : Fin 512) :
    (Rect.unit (s := S2x512x512) off S1x512x512.size inb).emb (ix3 0 r q) = ix3 j r q := by
  subst hoff
  funext a
  apply Fin.ext
  match a with
  | ⟨0, _⟩ => show j.val + 1 * 0 = j.val; omega
  | ⟨1, _⟩ => show 0 + 1 * r.val = r.val; omega
  | ⟨2, _⟩ => show 0 + 1 * q.val = q.val; omega

/-- So the slab of a block loaded through it reads the block at (j, r, q). -/
theorem ld_slab (x0 : Vec F S2x512x512 .f32) (off : Fin 3 → Nat) (j : Fin 2) (hoff : off = ![j.val, 0, 0])
    (inb : ∀ a, off a + S1x512x512.size a ≤ S2x512x512.size a) (r q : Fin 512) :
    View.ld x0 (Rect.unit (s := S2x512x512) off S1x512x512.size inb) (ix3 0 r q) = x0 (ix3 j r q) :=
  congrArg x0 (slab_emb off j hoff inb r q)

/-- Under the later store, slab 1, the buffer holds that store's tile; -/
theorem canon_slab1 (w1 w0 : Vec F S1x512x512 .f32) (r q : Fin 512) :
    View.canon (Val := Elt F) [⟨slab1, w1⟩, ⟨slab0, w0⟩] (ix3 1 r q) = w1 (ix3 0 r q) := by
  rw [← slab_emb ![1, 0, 0] 1 rfl inb_S2x512x512_S1x512x512_1_0_0 r q]
  exact View.canon_cons_emb slab1 w1 _ (ix3 0 r q)

/-- off it, under slab 0, the earlier store's. -/
theorem canon_slab0 (w1 w0 : Vec F S1x512x512 .f32) (r q : Fin 512) :
    View.canon (Val := Elt F) [⟨slab1, w1⟩, ⟨slab0, w0⟩] (ix3 0 r q) = w0 (ix3 0 r q) := by
  have hnot : (ix3 0 r q : S2x512x512.Idx) ∉ (⟨slab1, w1⟩ : View.Piece (Elt F) S2x512x512 .f32).1.set := by
    show ¬(ix3 0 r q : S2x512x512.Idx) ∈ (Rect.unit (s := S2x512x512) ![1, 0, 0] S1x512x512.size inb_S2x512x512_S1x512x512_1_0_0).set
    rw [Rect.mem_set_unit]
    intro h
    exact absurd (show (1 : Nat) ≤ 0 from (h 0).1) (by decide)
  refine (View.canon_cons_of_not_mem (Val := Elt F) (⟨slab1, w1⟩ : View.Piece (Elt F) S2x512x512 .f32) [⟨slab0, w0⟩] hnot).trans ?_
  rw [← slab_emb ![0, 0, 0] 0 rfl inb_S2x512x512_S1x512x512_0_0_0 r q]
  exact View.canon_cons_emb slab0 w0 _ (ix3 0 r q)

/-- A count word loaded at offset `k` is entry `k` of the vector as the memref reads it. -/
theorem wordAt_apply (c : Dev nD) (M : Memref sig .tc .smem S128 .i32) (xt : TbBuf0 (F := F) c M) (off : Fin 1 → Nat)
    (inb : ∀ a, off a + S1.size a ≤ S128.size a) (k : Fin 128) (hk : off = ![k.val]) :
    wordAt c M xt off inb = M.view.read (Elt F) xt (ix1 k) := by
  subst hk
  show M.view.read (Elt F) xt _ = M.view.read (Elt F) xt _
  refine congrArg _ ?_
  funext a
  apply Fin.ext
  match a with
  | ⟨0, _⟩ => show k.val + 1 * 0 = k.val; omega

/-! ## The body's result entry by entry, at the ideal instance -/

/-- The batch element slot `j` of grid point `i` works on: `2 i + j`. -/
def batOf (i : grid0.Coords) (j : Fin 2) : Fin 128 :=
  ⟨2 * (i 0).val + j.val, by have hi : (i 0).val < 64 := (i 0).isLt; have hj := j.isLt; omega⟩

theorem fin2_cases : ∀ j : Fin 2, j = 0 ∨ j = 1 := by decide

/-- Entry (j, r, q) of what the body leaves: ten kernel steps on slab `j` of the data block plus the literal, the column
    set the indices below entry `2 i + j` of the second count vector, the row set those below that entry of the first. -/
theorem body_entry (c : Dev nD) (i : grid0.Coords) (a3 : Memref sig .tc .vmem S2x512x512 .f32) (h3 : a3.IsWhole)
    (a4 : Memref sig .tc .vmem S2x512x512 .f32) (h4 : a4.IsWhole) (x0 : Vec Ideal S2x512x512 .f32)
    (xt0 : TbBuf0 (F := Ideal) c tbM0_0) (xt1 : TbBuf0 (F := Ideal) c tbM0_1) (j : Fin 2) (r q : Fin 512) :
    out0_A_1 c i a3 h3 a4 h4 x0 xt0 xt1 (ix3 j r q)
      = Sinkhorn.kerChain (Spec.below (tbM0_1.view.read (Elt Ideal) xt1 (ix1 (batOf i j))))
          (Spec.below (tbM0_0.view.read (Elt Ideal) xt0 (ix1 (batOf i j))))
          (fun r q => x0 (ix3 j r q) + Spec.eps) r q := by
  rw [body_canon]
  rcases fin2_cases j with rfl | rfl
  · refine (canon_slab0 (F := Ideal) _ _ r q).trans ?_
    refine (Tile.tile0_apply _ _ _ r q).trans ?_
    rw [wordAt_apply c tbM0_0 xt0 (k0_off1 i 0#32) (k0_off1_inb i 0) (batOf i 0) (k0_off1_eq i 0),
      wordAt_apply c tbM0_1 xt1 (k0_off1 i 0#32) (k0_off1_inb i 0) (batOf i 0) (k0_off1_eq i 0)]
    refine congrArg (fun T : Sinkhorn.Mat => Sinkhorn.kerChain _ _ T r q) ?_
    funext r' q'
    rw [ld_slab x0 ![0, 0, 0] 0 rfl]
  · refine (canon_slab1 (F := Ideal) _ _ r q).trans ?_
    refine (Tile.tile1_apply _ _ _ r q).trans ?_
    rw [wordAt_apply c tbM0_0 xt0 (k0_off1 i 1#32) (k0_off1_inb i 1) (batOf i 1) (k0_off1_eq i 1),
      wordAt_apply c tbM0_1 xt1 (k0_off1 i 1#32) (k0_off1_inb i 1) (batOf i 1) (k0_off1_eq i 1)]
    refine congrArg (fun T : Sinkhorn.Mat => Sinkhorn.kerChain _ _ T r q) ?_
    funext r' q'
    rw [ld_slab x0 ![1, 0, 0] 1 rfl]

end Body

section Arrays

variable (m : (ℓ : Loc nD τ sig) → Buf (Elt Ideal) ℓ)

/-! ## The loaded block and the loaded counts as entries of the arguments -/

/-- The index maps over the grid: at point `t` both windows' blocks start at tile `2 t` and at row and column zero, and
    the body's grid coordinate is `t`. -/
theorem idx_facts (a : (pcfg0 (F := Ideal)).Adm) : ∀ t : Fin (cfg0 a).N,
    ((cfg0 a).win 0).index t (0 : Fin 3) = t.val ∧ ((cfg0 a).win 0).index t (1 : Fin 3) = 0 ∧ ((cfg0 a).win 0).index t (2 : Fin 3) = 0
    ∧ ((cfg0 a).win 1).index t (0 : Fin 3) = t.val ∧ ((cfg0 a).win 1).index t (1 : Fin 3) = 0 ∧ ((cfg0 a).win 1).index t (2 : Fin 3) = 0
    ∧ (grid0.coords t 0).val = t.val :=
  (by decide +kernel : ∀ t : Fin grid0.N,
    cc0_transform_0 (grid0.coords t) (0 : Fin 3) = t.val ∧ cc0_transform_0 (grid0.coords t) (1 : Fin 3) = 0 ∧ cc0_transform_0 (grid0.coords t) (2 : Fin 3) = 0
    ∧ cc0_transform_1 (grid0.coords t) (0 : Fin 3) = t.val ∧ cc0_transform_1 (grid0.coords t) (1 : Fin 3) = 0 ∧ cc0_transform_1 (grid0.coords t) (2 : Fin 3) = 0
    ∧ (grid0.coords t 0).val = t.val)

/-- Entry (j, r, q) of the data block at point `t` is entry (2 t + j, r, q) of the data: a block's element sits at the
    block index times the block size plus its own coordinate. -/
theorem iblk_apply (hO : Ok m) (c : Dev nD) (t : Fin (cfgM m hO).N) (j : Fin 2) (r q : Fin 512) (b : Fin 128)
    (hb : b.val = 2 * t.val + j.val) :
    (iblk m hO c 0 t : Vec Ideal S2x512x512 .f32) (ix3 j r q) = m ((c : Thread nD τ).loc main_arg0) (ix3 b r q) := by
  obtain ⟨e0, e1, e2, -⟩ := idx_facts (adm m hO) t
  show V m c main_arg0 ((((cfgM m hO).win 0).blk t).view.emb (ix3 j r q)) = m (c.tc.loc main_arg0) (ix3 b r q)
  unfold V
  refine congrArg _ ?_
  funext a
  apply Fin.ext
  match a with
  | ⟨0, _⟩ => show ((cfgM m hO).win 0).index t (0 : Fin 3) * 2 + 1 * j.val = b.val; rw [e0, hb]; omega
  | ⟨1, _⟩ => show ((cfgM m hO).win 0).index t (1 : Fin 3) * 512 + 1 * r.val = r.val; rw [e1]; omega
  | ⟨2, _⟩ => show ((cfgM m hO).win 0).index t (2 : Fin 3) * 512 + 1 * q.val = q.val; rw [e2]; omega

/-- The first table the body is handed is the first count vector, -/
theorem tbl0_apply (c : Dev nD) (k : Fin 128) :
    tbM0_0.view.read (Elt Ideal) (tbl m 0) (ix1 k) = m ((c : Thread nD τ).loc main_arg1) (ix1 k) := by
  obtain rfl : c = 0 := Subsingleton.elim _ _
  rfl

/-- and the second the second. -/
theorem tbl1_apply (c : Dev nD) (k : Fin 128) :
    tbM0_1.view.read (Elt Ideal) (tbl m 1) (ix1 k) = m ((c : Thread nD τ).loc main_arg2) (ix1 k) := by
  obtain rfl : c = 0 := Subsingleton.elim _ _
  rfl

/-! ## What every point writes back, the cover, and the result array -/

/-- Every index of a staging buffer is its three coordinates. -/
theorem exists_ix3 (y : S2x512x512.Idx) : ∃ (j : Fin 2) (r q : Fin 512), y = ix3 j r q := ⟨y 0, y 1, y 2, eq_ix3 y⟩

/-- WHAT POINT `t` WRITES BACK is block `t` of `Spec.kerG` of the three arguments. -/
theorem flushed_eq (hO : Ok m) (c : Dev nD) (t : Fin (cfgM m hO).N) :
    (dats m hO 0 c).flushed 1 t = (((cfgM m hO).win 1).blk t).view.read (Elt Ideal)
      (Spec.kerG (m ((c : Thread nD τ).loc main_arg0)) (m ((c : Thread nD τ).loc main_arg1)) (m ((c : Thread nD τ).loc main_arg2))) := by
  have hN : (cfgM m hO).N = 64 := N_0
  have ht : t.val < 64 := by have := t.isLt; omega
  obtain ⟨-, -, -, e0, e1, e2, ec⟩ := idx_facts (adm m hO) t
  show ((cfgM m hO).win 1).cut (grid0.coords t) ((dats m hO 0 c).after 1 t) = _
  rw [after0_1]
  unfold outsAt0
  funext y
  obtain ⟨j, r, q, rfl⟩ := exists_ix3 y
  have hj := j.isLt
  have hb : batOf (grid0.coords t) j = (⟨2 * t.val + j.val, by omega⟩ : Fin 128) :=
    Fin.ext (by show 2 * (grid0.coords t 0).val + j.val = 2 * t.val + j.val; rw [ec])
  have hemb : (((cfgM m hO).win 1).blk t).view.emb (ix3 j r q) = ix3 (⟨2 * t.val + j.val, by omega⟩ : Fin 128) r q := by
    funext a
    apply Fin.ext
    match a with
    | ⟨0, _⟩ => show ((cfgM m hO).win 1).index t (0 : Fin 3) * 2 + 1 * j.val = 2 * t.val + j.val; rw [e0]; omega
    | ⟨1, _⟩ => show ((cfgM m hO).win 1).index t (1 : Fin 3) * 512 + 1 * r.val = r.val; rw [e1]; omega
    | ⟨2, _⟩ => show ((cfgM m hO).win 1).index t (2 : Fin 3) * 512 + 1 * q.val = q.val; rw [e2]; omega
  show out0_A_1 c (grid0.coords t) (ms0_0 m hO t) (hs0_0 m hO t) (ms0_1 m hO t) (hs0_1 m hO t) (iblk m hO c 0 t) (tbl m 0) (tbl m 1) (ix3 j r q)
    = Spec.kerG (m ((c : Thread nD τ).loc main_arg0)) (m ((c : Thread nD τ).loc main_arg1)) (m ((c : Thread nD τ).loc main_arg2))
        ((((cfgM m hO).win 1).blk t).view.emb (ix3 j r q))
  rw [hemb]
  refine (body_entry c (grid0.coords t) (ms0_0 m hO t) (hs0_0 m hO t) (ms0_1 m hO t) (hs0_1 m hO t) (iblk m hO c 0 t) (tbl m 0) (tbl m 1) j r q).trans ?_
  rw [hb, tbl0_apply m c, tbl1_apply m c]
  show Sinkhorn.kerChain _ _ _ r q = Sinkhorn.kerChain _ _ (Spec.tileOf (m ((c : Thread nD τ).loc main_arg0)) ⟨2 * t.val + j.val, by omega⟩) r q
  refine congrArg (fun T : Sinkhorn.Mat => Sinkhorn.kerChain _ _ T r q) ?_
  funext r' q'
  exact congrArg (fun v : EReal => v + Spec.eps) (iblk_apply m hO c t j r' q' ⟨2 * t.val + j.val, by omega⟩ rfl)

/-- An index of the result lies in point `t`'s block iff each coordinate is in the block's range on its axis. -/
theorem mem_blk (hO : Ok m) (t : Fin (cfgM m hO).N) (i : S128x512x512.Idx) :
    i ∈ (((cfgM m hO).win 1).blk t).view.set ↔ ∀ a : Fin 3, ((cfgM m hO).win 1).index t a * S2x512x512.size a ≤ (i a).val
      ∧ (i a).val < ((cfgM m hO).win 1).index t a * S2x512x512.size a + S2x512x512.size a :=
  (Eq.to_iff (congrArg (fun s : Finset S128x512x512.Idx => i ∈ s)
    (View.set_slice_whole main_v0 (((cfgM m hO).win 1).rect t)))).trans Rect.mem_set_unit

/-- Every index of the result lies in the block of the point that holds its tile: tile `b` in point `b / 2`. -/
theorem cover (hO : Ok m) (i : S128x512x512.Idx) :
    ∃ t : Fin (cfgM m hO).N, ((cfgM m hO).win 1).flush t = true ∧ i ∈ (((cfgM m hO).win 1).blk t).view.set := by
  have hN : (cfgM m hO).N = 64 := N_0
  have hi0 : (i 0).val < 128 := (i 0).isLt
  have hi1 : (i 1).val < 512 := (i 1).isLt
  have hi2 : (i 2).val < 512 := (i 2).isLt
  have hlt : (i 0).val / 2 < (cfgM m hO).N := by rw [hN]; omega
  obtain ⟨-, -, -, e0, e1, e2, -⟩ := idx_facts (adm m hO) ⟨(i 0).val / 2, hlt⟩
  refine ⟨⟨(i 0).val / 2, hlt⟩, flush0_1 (adm m hO) _, (mem_blk m hO _ i).mpr ?_⟩
  intro a
  match a with
  | ⟨0, _⟩ =>
    show ((cfgM m hO).win 1).index ⟨(i 0).val / 2, hlt⟩ (0 : Fin 3) * 2 ≤ (i 0).val
      ∧ (i 0).val < ((cfgM m hO).win 1).index ⟨(i 0).val / 2, hlt⟩ (0 : Fin 3) * 2 + 2
    rw [e0]; show (i 0).val / 2 * 2 ≤ (i 0).val ∧ (i 0).val < (i 0).val / 2 * 2 + 2; omega
  | ⟨1, _⟩ =>
    show ((cfgM m hO).win 1).index ⟨(i 0).val / 2, hlt⟩ (1 : Fin 3) * 512 ≤ (i 1).val
      ∧ (i 1).val < ((cfgM m hO).win 1).index ⟨(i 0).val / 2, hlt⟩ (1 : Fin 3) * 512 + 512
    rw [e1]; omega
  | ⟨2, _⟩ =>
    show ((cfgM m hO).win 1).index ⟨(i 0).val / 2, hlt⟩ (2 : Fin 3) * 512 ≤ (i 2).val
      ∧ (i 2).val < ((cfgM m hO).win 1).index ⟨(i 0).val / 2, hlt⟩ (2 : Fin 3) * 512 + 512
    rw [e2]; omega

/-- So the result array ends holding `Spec.kerG` of the three arguments. -/
theorem final (hO : Ok m) (c : Dev nD) : (dats m hO 0 c).arrAt 1 (cfgM m hO).N
    = Spec.kerG (m ((c : Thread nD τ).loc main_arg0)) (m ((c : Thread nD τ).loc main_arg1)) (m ((c : Thread nD τ).loc main_arg2)) :=
  (dats m hO 0 c).arrAt_eq_of_cover 1
    (Spec.kerG (m ((c : Thread nD τ).loc main_arg0)) (m ((c : Thread nD τ).loc main_arg1)) (m ((c : Thread nD τ).loc main_arg2)))
    (fun t _ => flushed_eq m hO c t) (cover m hO)

end Arrays

/-! ## The run -/

/-- The run, with the result array as `Spec.kerG` of the launch contents of the three arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0)
        = Spec.kerG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 1).trans (final m trivial c),
      ((h c).1 0).trans (((dats m trivial 0 c).arrAt_in 0 rfl _).trans ((A_eq m trivial c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ trivial)

end Cert.KernelIdeal.KValue

end
-- ==== Proof.RefSteps.lean ====
/-
  The reference's steps on the whole [128, 512, 512] array, as the host operations compose them, and
  the result they give entry by entry.

  The mask of a count vector `n` is, at (b, i), "index i is below n[b]".  Laid along the rows
  (`rowsOf`) or along the columns (`colsOf`) of every tile and conjoined it is the block mask.  A
  column step sums, for each batch element and column, the entries whose row is inside, and
  divides the block's entries by that sum (everything outside the block is zero over one); a row
  step is the same along rows.  The reference is ten alternating steps from `s + ε`.
-/
import proofs.«421173_j7550552506671_2_alg».proof.ReferenceIdeal
import proofs.«421173_j7550552506671_2_alg».proof.Proof.Gen.ReferenceIdeal
import proofs.«421173_j7550552506671_2_alg».proof.Proof.Spec
import Idealize.ShloMosaic.Lib.ValueIdx
import Idealize.ShloMosaic.Lib.Pipeline.Value
import Idealize.ShloMosaic.PureOps.Ideal.Laws

noncomputable section

namespace Cert.ReferenceIdeal.Steps

open Cert.ReferenceIdeal Cert.ReferenceIdeal.Gen Idealize.ShloMosaic Idealize.ShloMosaic.ValueIdx

variable {F : FTy → Type} [FloatOps F]

/-- The array of zeros and the array of ones the selects fall back to. -/
def zeros : FVec F S128x512x512 .f32 := broadcastInDim S128x512x512 ![] bcast_S_S128x512x512 (constant S_ .f32 0x00000000#32)
def ones : FVec F S128x512x512 .f32 := broadcastInDim S128x512x512 ![] bcast_S_S128x512x512 (constant S_ .f32 0x3F800000#32)

/-- The mask of a count vector: at (b, i), index `i` is below `n[b]` (signed). -/
def maskOf (n : IVec S128 32) : IVec S128x512 1 :=
  cmpi .slt
    (broadcastInDim S128x512 ![0, 1] bcast_S1x512_S128x512_0_1 (broadcastInDim S1x512 ![1] bcast_S512_S1x512_1 (iotaInDim S512 32 0)))
    (broadcastInDim S128x512 ![0, 1] bcast_S128x1_S128x512_0_1 (broadcastInDim S128x1 ![0] bcast_S128_S128x1_0 n))

/-- A [128, 512] mask laid along the rows of every tile: at (b, r, c) it is the mask at (b, r). -/
def rowsOf (mk : IVec S128x512 1) : IVec S128x512x512 1 :=
  broadcastInDim S128x512x512 ![0, 1, 2] bcast_S128x512x1_S128x512x512_0_1_2 (broadcastInDim S128x512x1 ![0, 1] bcast_S128x512_S128x512x1_0_1 mk)

/-- The same along the columns: at (b, r, c) it is the mask at (b, c). -/
def colsOf (mk : IVec S128x512 1) : IVec S128x512x512 1 :=
  broadcastInDim S128x512x512 ![0, 1, 2] bcast_S128x1x512_S128x512x512_0_1_2 (broadcastInDim S128x1x512 ![0, 2] bcast_S128x512_S128x1x512_0_2 mk)

/-- The block mask: row and column both inside. -/
def blockOf (mk : IVec S128x512 1) : IVec S128x512x512 1 := andi (rowsOf mk) (colsOf mk)

/-- The reference's column step with mask `mk`. -/
def colStep (mk : IVec S128x512 1) (x : FVec F S128x512x512 .f32) : FVec F S128x512x512 .f32 :=
  Host.divf (select (blockOf mk) x zeros)
    (select (blockOf mk)
      (broadcastInDim S128x512x512 ![0, 1, 2] bcast_S128x1x512_S128x512x512_0_1_2
        (broadcastInDim S128x1x512 ![0, 2] bcast_S128x512_S128x1x512_0_2
          (Host.reduceAdd (select (rowsOf mk) x zeros) (constant S_ .f32 0x00000000#32) reducesTo_S128x512x512_S128x512_d1 h_S_)))
      ones)

/-- The reference's row step with mask `mk`. -/
def rowStep (mk : IVec S128x512 1) (x : FVec F S128x512x512 .f32) : FVec F S128x512x512 .f32 :=
  Host.divf (select (blockOf mk) x zeros)
    (select (blockOf mk)
      (broadcastInDim S128x512x512 ![0, 1, 2] bcast_S128x512x1_S128x512x512_0_1_2
        (broadcastInDim S128x512x1 ![0, 1] bcast_S128x512_S128x512x1_0_1
          (Host.reduceAdd (select (colsOf mk) x zeros) (constant S_ .f32 0x00000000#32) reducesTo_S128x512x512_S128x512_d2 h_S_)))
      ones)

/-- The data plus the literal. -/
def start (s : FVec F S128x512x512 .f32) : FVec F S128x512x512 .f32 :=
  addf s (broadcastInDim S128x512x512 ![] bcast_S_S128x512x512 (constant S_ .f32 0x38D1B717#32))

/-- One column step on the column counts' mask followed by one row step on the row counts'. -/
def pair (nr nc : IVec S128 32) (x : FVec F S128x512x512 .f32) : FVec F S128x512x512 .f32 :=
  rowStep (maskOf nr) (colStep (maskOf nc) x)

/-- The reference's result: five such pairs from the data plus the literal. -/
def result (s : FVec F S128x512x512 .f32) (nr nc : IVec S128 32) : FVec F S128x512x512 .f32 :=
  pair nr nc (pair nr nc (pair nr nc (pair nr nc (pair nr nc (start s)))))

/-! ### Reading a broadcast at an index

Each of the broadcasts the reference uses keeps some coordinates of the result index and puts zero on
the operand's axes of size one. -/

section Broadcasts
variable {α : Type}

/-- A vector laid as a [1, 512] row reads, at (z, i), the vector at i. -/
theorem bc_row (y : S512.Idx → α) (z : Fin 1) (i : Fin 512) :
    broadcastInDim S1x512 ![1] bcast_S512_S1x512_1 y (ix2 z i) = y (ix1 i) :=
  broadcastInDim_apply _ bcast_S512_S1x512_1 y (ix2 z i) (ix1 i) (fun a => match a with
    | ⟨0, _⟩ => by show i.val = if (512 : Nat) = 1 then 0 else i.val; rw [if_neg (by decide)])

/-- A [1, 512] row laid down the 128 rows reads, at (b, i), the row at (0, i). -/
theorem bc_row_all (y : S1x512.Idx → α) (b : Fin 128) (i : Fin 512) :
    broadcastInDim S128x512 ![0, 1] bcast_S1x512_S128x512_0_1 y (ix2 b i) = y (ix2 (0 : Fin 1) i) :=
  broadcastInDim_apply _ bcast_S1x512_S128x512_0_1 y (ix2 b i) (ix2 (0 : Fin 1) i) (fun a => match a with
    | ⟨0, _⟩ => by show 0 = if (1 : Nat) = 1 then 0 else b.val; rw [if_pos rfl]
    | ⟨1, _⟩ => by show i.val = if (512 : Nat) = 1 then 0 else i.val; rw [if_neg (by decide)])

/-- A vector laid as a [128, 1] column reads, at (b, z), the vector at b. -/
theorem bc_col (y : S128.Idx → α) (b : Fin 128) (z : Fin 1) :
    broadcastInDim S128x1 ![0] bcast_S128_S128x1_0 y (ix2 b z) = y (ix1 b) :=
  broadcastInDim_apply _ bcast_S128_S128x1_0 y (ix2 b z) (ix1 b) (fun a => match a with
    | ⟨0, _⟩ => by show b.val = if (128 : Nat) = 1 then 0 else b.val; rw [if_neg (by decide)])

/-- A [128, 1] column laid along the 512 columns reads, at (b, i), the column at (b, 0). -/
theorem bc_col_all (y : S128x1.Idx → α) (b : Fin 128) (i : Fin 512) :
    broadcastInDim S128x512 ![0, 1] bcast_S128x1_S128x512_0_1 y (ix2 b i) = y (ix2 b (0 : Fin 1)) :=
  broadcastInDim_apply _ bcast_S128x1_S128x512_0_1 y (ix2 b i) (ix2 b (0 : Fin 1)) (fun a => match a with
    | ⟨0, _⟩ => by show b.val = if (128 : Nat) = 1 then 0 else b.val; rw [if_neg (by decide)]
    | ⟨1, _⟩ => by show 0 = if (1 : Nat) = 1 then 0 else i.val; rw [if_pos rfl])

/-- A [128, 512] array given a last axis of size one reads, at (b, r, z), the array at (b, r). -/
theorem bc_last (y : S128x512.Idx → α) (b : Fin 128) (r : Fin 512) (z : Fin 1) :
    broadcastInDim S128x512x1 ![0, 1] bcast_S128x512_S128x512x1_0_1 y (ix3 b r z) = y (ix2 b r) :=
  broadcastInDim_apply _ bcast_S128x512_S128x512x1_0_1 y (ix3 b r z) (ix2 b r) (fun a => match a with
    | ⟨0, _⟩ => by show b.val = if (128 : Nat) = 1 then 0 else b.val; rw [if_neg (by decide)]
    | ⟨1, _⟩ => by show r.val = if (512 : Nat) = 1 then 0 else r.val; rw [if_neg (by decide)])

/-- A [128, 512, 1] array laid along the last axis reads, at (b, r, c), the array at (b, r, 0). -/
theorem bc_last_all (y : S128x512x1.Idx → α) (b : Fin 128) (r c : Fin 512) :
    broadcastInDim S128x512x512 ![0, 1, 2] bcast_S128x512x1_S128x512x512_0_1_2 y (ix3 b r c) = y (ix3 b r (0 : Fin 1)) :=
  broadcastInDim_apply _ bcast_S128x512x1_S128x512x512_0_1_2 y (ix3 b r c) (ix3 b r (0 : Fin 1)) (fun a => match a with
    | ⟨0, _⟩ => by show b.val = if (128 : Nat) = 1 then 0 else b.val; rw [if_neg (by decide)]
    | ⟨1, _⟩ => by show r.val = if (512 : Nat) = 1 then 0 else r.val; rw [if_neg (by decide)]
    | ⟨2, _⟩ => by show 0 = if (1 : Nat) = 1 then 0 else c.val; rw [if_pos rfl])

/-- A [128, 512] array given a middle axis of size one reads, at (b, z, c), the array at (b, c). -/
theorem bc_mid (y : S128x512.Idx → α) (b : Fin 128) (z : Fin 1) (c : Fin 512) :
    broadcastInDim S128x1x512 ![0, 2] bcast_S128x512_S128x1x512_0_2 y (ix3 b z c) = y (ix2 b c) :=
  broadcastInDim_apply _ bcast_S128x512_S128x1x512_0_2 y (ix3 b z c) (ix2 b c) (fun a => match a with
    | ⟨0, _⟩ => by show b.val = if (128 : Nat) = 1 then 0 else b.val; rw [if_neg (by decide)]
    | ⟨1, _⟩ => by show c.val = if (512 : Nat) = 1 then 0 else c.val; rw [if_neg (by decide)])

/-- A [128, 1, 512] array laid along the middle axis reads, at (b, r, c), the array at (b, 0, c). -/
theorem bc_mid_all (y : S128x1x512.Idx → α) (b : Fin 128) (r c : Fin 512) :
    broadcastInDim S128x512x512 ![0, 1, 2] bcast_S128x1x512_S128x512x512_0_1_2 y (ix3 b r c) = y (ix3 b (0 : Fin 1) c) :=
  broadcastInDim_apply _ bcast_S128x1x512_S128x512x512_0_1_2 y (ix3 b r c) (ix3 b (0 : Fin 1) c) (fun a => match a with
    | ⟨0, _⟩ => by show b.val = if (128 : Nat) = 1 then 0 else b.val; rw [if_neg (by decide)]
    | ⟨1, _⟩ => by show 0 = if (1 : Nat) = 1 then 0 else r.val; rw [if_pos rfl]
    | ⟨2, _⟩ => by show c.val = if (512 : Nat) = 1 then 0 else c.val; rw [if_neg (by decide)])

/-- A scalar laid over the whole array reads the scalar everywhere. -/
theorem bc_scalar (y : S_.Idx → α) (i : S128x512x512.Idx) :
    broadcastInDim S128x512x512 ![] bcast_S_S128x512x512 y i = y ix0 :=
  broadcastInDim_apply _ bcast_S_S128x512x512 y i ix0 (fun a => a.elim0)

end Broadcasts

/-! ### The masks at an index -/

/-- The mask at (b, i) is the signed comparison of the index with the count. -/
theorem maskOf_apply (n : IVec S128 32) (b : Fin 128) (i : Fin 512) :
    maskOf n (ix2 b i) = IntOp.cmpi .slt (BitVec.ofNat 32 i.val) (n (ix1 b)) := by
  unfold maskOf
  show IntOp.cmpi .slt
      (broadcastInDim S128x512 ![0, 1] bcast_S1x512_S128x512_0_1
        (broadcastInDim S1x512 ![1] bcast_S512_S1x512_1 (iotaInDim S512 32 0)) (ix2 b i))
      (broadcastInDim S128x512 ![0, 1] bcast_S128x1_S128x512_0_1
        (broadcastInDim S128x1 ![0] bcast_S128_S128x1_0 n) (ix2 b i)) = _
  rw [bc_row_all, bc_row, bc_col_all, bc_col]
  rfl

/-- The mask's bit at (b, i) is set exactly when i lies below the count of b. -/
theorem maskOf_eq_one_iff (n : IVec S128 32) (b : Fin 128) (i : Fin 512) :
    maskOf n (ix2 b i) = 1#1 ↔ Spec.below (n (ix1 b)) i := by
  rw [maskOf_apply]
  show BitVec.ofBool ((BitVec.ofNat 32 i.val).slt (n (ix1 b))) = 1#1
    ↔ (BitVec.ofNat 32 i.val).slt (n (ix1 b)) = true
  generalize (BitVec.ofNat 32 i.val).slt (n (ix1 b)) = t
  cases t <;> decide

/-- Laid along the rows, the mask at (b, r, c) is the mask at (b, r). -/
theorem rowsOf_apply (mk : IVec S128x512 1) (b : Fin 128) (r c : Fin 512) :
    rowsOf mk (ix3 b r c) = mk (ix2 b r) := by
  unfold rowsOf
  rw [bc_last_all, bc_last]

/-- Laid along the columns, the mask at (b, r, c) is the mask at (b, c). -/
theorem colsOf_apply (mk : IVec S128x512 1) (b : Fin 128) (r c : Fin 512) :
    colsOf mk (ix3 b r c) = mk (ix2 b c) := by
  unfold colsOf
  rw [bc_mid_all, bc_mid]

/-- The block mask's bit at (b, r, c) is set exactly when the mask's bits at (b, r) and (b, c) are. -/
theorem blockOf_eq_one_iff (mk : IVec S128x512 1) (b : Fin 128) (r c : Fin 512) :
    blockOf mk (ix3 b r c) = 1#1 ↔ mk (ix2 b r) = 1#1 ∧ mk (ix2 b c) = 1#1 := by
  show IntOp.andi (rowsOf mk (ix3 b r c)) (colsOf mk (ix3 b r c)) = 1#1 ↔ _
  rw [rowsOf_apply, colsOf_apply]
  unfold IntOp.andi
  rcases BitVec.eq_zero_or_eq_one (mk (ix2 b r)) with h | h <;>
    rcases BitVec.eq_zero_or_eq_one (mk (ix2 b c)) with h' | h' <;> rw [h, h'] <;> decide

/-! ### The constants and the first tile -/

/-- The word of the float one is the real one. -/
theorem ofBits_one_f32 : Ideal.ofBits .f32 0x3F800000#32 = 1 := by
  simp [Ideal.ofBits, Ideal.ieee, -EReal.coe_mul]
  norm_num

theorem zeros_apply (i : S128x512x512.Idx) : zeros (F := Ideal) i = 0 := by
  unfold zeros
  rw [bc_scalar]
  exact Ideal.ofBits_zero_f32

theorem ones_apply (i : S128x512x512.Idx) : ones (F := Ideal) i = 1 := by
  unfold ones
  rw [bc_scalar]
  exact ofBits_one_f32

theorem start_apply (s : FVec Ideal S128x512x512 .f32) (i : S128x512x512.Idx) :
    start (F := Ideal) s i = s i + Spec.eps := by
  unfold start
  rw [addf_apply, bc_scalar]
  rfl

/-! ### The host sums and quotient at an index -/

/-- The sum along the rows: at (b, c), zero plus the sum over k of the entry at (b, k, c). -/
theorem sumRows_apply (y : FVec Ideal S128x512x512 .f32) (b : Fin 128) (c : Fin 512) :
    Host.reduceAdd (F := Ideal) y (constant (F := Ideal) S_ .f32 0x00000000#32)
        reducesTo_S128x512x512_S128x512_d1 h_S_ (ix2 b c)
      = 0 + ∑ k : Fin 512, y (ix3 b k c) := by
  simp only [Host.reduceAdd, Ideal.hostReduceAdd_def]
  rw [Ideal.hostReduceAdd_single reducesTo_S128x512x512_S128x512_d1 (by decide)]
  refine congrArg₂ (· + ·) ?_ (Finset.sum_congr rfl fun k _ => ?_)
  · exact Ideal.ofBits_zero_f32
  · exact congrArg y (funext fun a => Fin.ext (by match a with | ⟨0, _⟩ => rfl | ⟨1, _⟩ => rfl | ⟨2, _⟩ => rfl))

/-- The sum along the columns: at (b, r), zero plus the sum over k of the entry at (b, r, k). -/
theorem sumCols_apply (y : FVec Ideal S128x512x512 .f32) (b : Fin 128) (r : Fin 512) :
    Host.reduceAdd (F := Ideal) y (constant (F := Ideal) S_ .f32 0x00000000#32)
        reducesTo_S128x512x512_S128x512_d2 h_S_ (ix2 b r)
      = 0 + ∑ k : Fin 512, y (ix3 b r k) := by
  simp only [Host.reduceAdd, Ideal.hostReduceAdd_def]
  rw [Ideal.hostReduceAdd_single reducesTo_S128x512x512_S128x512_d2 (by decide)]
  refine congrArg₂ (· + ·) ?_ (Finset.sum_congr rfl fun k _ => ?_)
  · exact Ideal.ofBits_zero_f32
  · exact congrArg y (funext fun a => Fin.ext (by match a with | ⟨0, _⟩ => rfl | ⟨1, _⟩ => rfl | ⟨2, _⟩ => rfl))

/-- The host quotient at an index is the quotient of the entries. -/
theorem hostDivf_apply (a d : FVec Ideal S128x512x512 .f32) (i : S128x512x512.Idx) :
    Host.divf (F := Ideal) a d i = Ideal.div (a i) (d i) := rfl

/-! ### The steps on one batch element's tile -/

/-- Batch element b's tile of a whole array. -/
def toMat3 (v : FVec Ideal S128x512x512 .f32) (b : Fin 128) : Sinkhorn.Mat := fun r c => v (ix3 b r c)

/-- On each tile the column step is the reference's column step on the indices below the count. -/
theorem toMat3_colStep (n : IVec S128 32) (x : FVec Ideal S128x512x512 .f32) (b : Fin 128) :
    toMat3 (colStep (F := Ideal) (maskOf n) x) b
      = Sinkhorn.refCol (Spec.below (n (ix1 b))) (toMat3 x b) := by
  funext r c
  show colStep (F := Ideal) (maskOf n) x (ix3 b r c) = _
  unfold Sinkhorn.refCol colStep
  rw [hostDivf_apply, select_apply, select_apply, zeros_apply, ones_apply, bc_mid_all, bc_mid, sumRows_apply]
  have hblk : blockOf (maskOf n) (ix3 b r c) = 1#1
      ↔ Spec.below (n (ix1 b)) r ∧ Spec.below (n (ix1 b)) c := by
    rw [blockOf_eq_one_iff, maskOf_eq_one_iff, maskOf_eq_one_iff]
  have hsum : (∑ k : Fin 512, select (rowsOf (maskOf n)) x (zeros (F := Ideal)) (ix3 b k c))
      = ∑ k : Fin 512, if Spec.below (n (ix1 b)) k then toMat3 x b k c else 0 := by
    refine Finset.sum_congr rfl fun k _ => ?_
    rw [select_apply, zeros_apply, rowsOf_apply]
    exact if_congr (maskOf_eq_one_iff n b k) rfl rfl
  rw [hsum]
  exact congrArg₂ Ideal.div (if_congr hblk rfl rfl) (if_congr hblk rfl rfl)

/-- On each tile the row step is the reference's row step on the indices below the count. -/
theorem toMat3_rowStep (n : IVec S128 32) (x : FVec Ideal S128x512x512 .f32) (b : Fin 128) :
    toMat3 (rowStep (F := Ideal) (maskOf n) x) b
      = Sinkhorn.refRow (Spec.below (n (ix1 b))) (toMat3 x b) := by
  funext r c
  show rowStep (F := Ideal) (maskOf n) x (ix3 b r c) = _
  unfold Sinkhorn.refRow rowStep
  rw [hostDivf_apply, select_apply, select_apply, zeros_apply, ones_apply, bc_last_all, bc_last, sumCols_apply]
  have hblk : blockOf (maskOf n) (ix3 b r c) = 1#1
      ↔ Spec.below (n (ix1 b)) r ∧ Spec.below (n (ix1 b)) c := by
    rw [blockOf_eq_one_iff, maskOf_eq_one_iff, maskOf_eq_one_iff]
  have hsum : (∑ k : Fin 512, select (colsOf (maskOf n)) x (zeros (F := Ideal)) (ix3 b r k))
      = ∑ k : Fin 512, if Spec.below (n (ix1 b)) k then toMat3 x b r k else 0 := by
    refine Finset.sum_congr rfl fun k _ => ?_
    rw [select_apply, zeros_apply, colsOf_apply]
    exact if_congr (maskOf_eq_one_iff n b k) rfl rfl
  rw [hsum]
  exact congrArg₂ Ideal.div (if_congr hblk rfl rfl) (if_congr hblk rfl rfl)

/-- The first tile is the data's tile plus the literal. -/
theorem toMat3_start (s : FVec Ideal S128x512x512 .f32) (b : Fin 128) :
    toMat3 (start (F := Ideal) s) b = Spec.tileOf s b := by
  funext r c
  exact start_apply s (ix3 b r c)

/-- A pair of steps on each tile. -/
theorem toMat3_pair (nr nc : IVec S128 32) (x : FVec Ideal S128x512x512 .f32) (b : Fin 128) :
    toMat3 (pair (F := Ideal) nr nc x) b
      = Sinkhorn.refRow (Spec.below (nr (ix1 b))) (Sinkhorn.refCol (Spec.below (nc (ix1 b))) (toMat3 x b)) := by
  unfold pair
  rw [toMat3_rowStep, toMat3_colStep]

/-- Entry by entry the result is ten reference steps of `Cert.Sinkhorn` on each batch element's tile. -/
theorem result_eq (s : FVec Ideal S128x512x512 .f32) (nr nc : IVec S128 32) :
    result (F := Ideal) s nr nc = Spec.refG s nr nc := by
  funext i
  obtain ⟨b, r, c, rfl⟩ : ∃ (b : Fin 128) (r c : Fin 512), i = ix3 b r c := ⟨i 0, i 1, i 2, eq_ix3 i⟩
  show toMat3 (result (F := Ideal) s nr nc) b r c
    = Sinkhorn.refChain (Spec.below (nc (ix1 b))) (Spec.below (nr (ix1 b))) (Spec.tileOf s b) r c
  unfold result Sinkhorn.refChain
  rw [toMat3_pair, toMat3_pair, toMat3_pair, toMat3_pair, toMat3_pair, toMat3_start]

end Cert.ReferenceIdeal.Steps

end
-- ==== Proof.RefValue.lean ====
/-
  The reference's run with its result named: every weakly fair execution ends with the result buffer
  at ten alternating steps (`Steps.result`) of the argument arrays, and the arguments unchanged.

  The fold of the 225 operations is read part by part: the first part leaves the four masks, the two
  block masks and the data plus the literal in their buffers; each later part is one step, a function
  of the buffers the part before left, and writes none of the masks.
-/
import proofs.«421173_j7550552506671_2_alg».proof.Proof.RefRun
import proofs.«421173_j7550552506671_2_alg».proof.Proof.RefSteps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## A step with the block mask read from its buffer

The program computes each block mask once, in the first part, and every step reads it from its buffer. A step is
therefore first a function of three arrays, the mask, the block mask and the operand; at the block mask of the
mask itself it is the step of `Steps`. -/

/-- A column step reading the row mask, the block mask and the operand as three separate arrays. -/
def colStepOf (mk : IVec S128x512 1) (bk : IVec S128x512x512 1) (x : FVec F S128x512x512 .f32) : FVec F S128x512x512 .f32 :=
  Host.divf (select bk x Steps.zeros)
    (select bk
      (broadcastInDim S128x512x512 ![0, 1, 2] bcast_S128x1x512_S128x512x512_0_1_2
        (broadcastInDim S128x1x512 ![0, 2] bcast_S128x512_S128x1x512_0_2
          (Host.reduceAdd (select (Steps.rowsOf mk) x Steps.zeros) (constant S_ .f32 0x00000000#32) reducesTo_S128x512x512_S128x512_d1 h_S_)))
      Steps.ones)

/-- A row step reading the column mask, the block mask and the operand as three separate arrays. -/
def rowStepOf (mk : IVec S128x512 1) (bk : IVec S128x512x512 1) (x : FVec F S128x512x512 .f32) : FVec F S128x512x512 .f32 :=
  Host.divf (select bk x Steps.zeros)
    (select bk
      (broadcastInDim S128x512x512 ![0, 1, 2] bcast_S128x512x1_S128x512x512_0_1_2
        (broadcastInDim S128x512x1 ![0, 1] bcast_S128x512_S128x512x1_0_1
          (Host.reduceAdd (select (Steps.colsOf mk) x Steps.zeros) (constant S_ .f32 0x00000000#32) reducesTo_S128x512x512_S128x512_d2 h_S_)))
      Steps.ones)

theorem colStep_eq (mk : IVec S128x512 1) (x : FVec F S128x512x512 .f32) :
    Steps.colStep mk x = colStepOf mk (Steps.blockOf mk) x := rfl
theorem rowStep_eq (mk : IVec S128x512 1) (x : FVec F S128x512x512 .f32) :
    Steps.rowStep mk x = rowStepOf mk (Steps.blockOf mk) x := rfl

/-! ## Operations 1 to 35: the masks, the block masks and the data plus the literal

Over any contents `W` of the buffers: the two count vectors' masks, their block masks and the data plus the
literal are functions of the three arguments, and the arguments are not written. -/

section First

variable (W : Valuation τ sig (Elt F))

theorem opsM_colMask : after RunP.opsM W (Proc.devRef .tc main_v6) = Steps.maskOf (W (Proc.devRef .tc main_arg2)) := by
  after_results_simp <;> rfl
theorem opsM_rowMask : after RunP.opsM W (Proc.devRef .tc main_v21) = Steps.maskOf (W (Proc.devRef .tc main_arg1)) := by
  after_results_simp <;> rfl
theorem opsM_colBlock : after RunP.opsM W (Proc.devRef .tc main_v26) = Steps.blockOf (Steps.maskOf (W (Proc.devRef .tc main_arg2))) := by
  after_results_simp <;> rfl
theorem opsM_rowBlock : after RunP.opsM W (Proc.devRef .tc main_v31) = Steps.blockOf (Steps.maskOf (W (Proc.devRef .tc main_arg1))) := by
  after_results_simp <;> rfl
theorem opsM_start : after RunP.opsM W (Proc.devRef .tc main_v33) = Steps.start (W (Proc.devRef .tc main_arg0)) := by
  after_results_simp <;> rfl
theorem opsM_arg0 : after RunP.opsM W (Proc.devRef .tc main_arg0) = W (Proc.devRef .tc main_arg0) := by
  after_results_simp
theorem opsM_arg1 : after RunP.opsM W (Proc.devRef .tc main_arg1) = W (Proc.devRef .tc main_arg1) := by
  after_results_simp
theorem opsM_arg2 : after RunP.opsM W (Proc.devRef .tc main_arg2) = W (Proc.devRef .tc main_arg2) := by
  after_results_simp

end First

/-! ## What every later part keeps

The masks, the block masks and the arguments as the first part leaves them from contents `V0`: no step part
writes any of these seven buffers. -/

/-- The seven buffers at contents `V` hold what the first part leaves in them from contents `V0`. -/
structure Kept (V0 V : Valuation τ sig (Elt F)) : Prop where
  colMask : V (Proc.devRef .tc main_v6) = Steps.maskOf (V0 (Proc.devRef .tc main_arg2))
  rowMask : V (Proc.devRef .tc main_v21) = Steps.maskOf (V0 (Proc.devRef .tc main_arg1))
  colBlock : V (Proc.devRef .tc main_v26) = Steps.blockOf (Steps.maskOf (V0 (Proc.devRef .tc main_arg2)))
  rowBlock : V (Proc.devRef .tc main_v31) = Steps.blockOf (Steps.maskOf (V0 (Proc.devRef .tc main_arg1)))
  arg0 : V (Proc.devRef .tc main_arg0) = V0 (Proc.devRef .tc main_arg0)
  arg1 : V (Proc.devRef .tc main_arg1) = V0 (Proc.devRef .tc main_arg1)
  arg2 : V (Proc.devRef .tc main_arg2) = V0 (Proc.devRef .tc main_arg2)

/-- The seven buffers. -/
abbrev keptRefs : List (Ref sig .tc) := [main_v6, main_v21, main_v26, main_v31, main_arg0, main_arg1, main_arg2]

/-- The first part establishes it. -/
theorem Kept.first (V0 : Valuation τ sig (Elt F)) : Kept V0 (after RunP.opsM V0) :=
  ⟨opsM_colMask V0, opsM_rowMask V0, opsM_colBlock V0, opsM_rowBlock V0, opsM_arg0 V0, opsM_arg1 V0, opsM_arg2 V0⟩

/-- A line of operations that writes none of the seven buffers keeps it. -/
theorem Kept.after {V0 V : Valuation τ sig (Elt F)} (h : Kept V0 V) {Wl : List (Ref sig .tc)} (ops : List (HloOp τ sig (Elt F)))
    (hW : ops.Forall fun op => op.writes ⊆ (Wl.map (Proc.devRef (τ := τ) .tc)).toFinset) (hd : ∀ r ∈ keptRefs, r ∉ Wl) :
    Kept V0 (after ops V) :=
  ⟨(after_of_writes_sub ops V hW (hd main_v6 (by decide))).trans h.colMask,
   (after_of_writes_sub ops V hW (hd main_v21 (by decide))).trans h.rowMask,
   (after_of_writes_sub ops V hW (hd main_v26 (by decide))).trans h.colBlock,
   (after_of_writes_sub ops V hW (hd main_v31 (by decide))).trans h.rowBlock,
   (after_of_writes_sub ops V hW (hd main_arg0 (by decide))).trans h.arg0,
   (after_of_writes_sub ops V hW (hd main_arg1 (by decide))).trans h.arg1,
   (after_of_writes_sub ops V hW (hd main_arg2 (by decide))).trans h.arg2⟩

/-- A buffer among a list of references is among the list's device buffers. -/
theorem sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

/-! ## The ten step parts

Each part is one step: over any contents `W` its result buffer ends at the step of the mask, the block mask and the
operand that `W` holds, and it writes only its own nineteen buffers. -/

/-! ### Operations 36 to 54: the first column step -/

/-- The column step of the mask, the block mask and the operand the part finds in their buffers. -/
theorem opsS0_out (W : Valuation τ sig (Elt F)) : after RunP.opsS0 W (Proc.devRef .tc main_v40)
    = colStepOf (W (Proc.devRef .tc main_v6)) (W (Proc.devRef .tc main_v26)) (W (Proc.devRef .tc main_v33)) := by
  after_results_simp <;> rfl

/-- The buffers the part writes. -/
abbrev wS0 : List (Ref sig .tc) :=
  [main_v34, main_cst_0, main_call0_v0, main_call0_v1, main_call0_v2, main_v35, main_cst_1, main_v36, main_v37, main_cst_2, main_call1_v0, main_call1_v1, main_call1_v2, main_v38, main_cst_3, main_call2_v0, main_call2_v1, main_v39, main_v40]

theorem opsS0_writes : (RunP.opsS0 : List (HloOp τ sig (Elt F))).Forall fun op => op.writes ⊆ (wS0.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the column step of `x`. -/
theorem opsS0_step {V0 V : Valuation τ sig (Elt F)} (h : Kept V0 V) {x : FVec F S128x512x512 .f32}
    (hx : V (Proc.devRef .tc main_v33) = x) :
    after RunP.opsS0 V (Proc.devRef .tc main_v40) = Steps.colStep (Steps.maskOf (V0 (Proc.devRef .tc main_arg2))) x := by
  rw [opsS0_out, h.colMask, h.colBlock, hx, colStep_eq]

/-! ### Operations 55 to 73: the first row step -/

/-- The row step of the mask, the block mask and the operand the part finds in their buffers. -/
theorem opsS1_out (W : Valuation τ sig (Elt F)) : after RunP.opsS1 W (Proc.devRef .tc main_v47)
    = rowStepOf (W (Proc.devRef .tc main_v21)) (W (Proc.devRef .tc main_v31)) (W (Proc.devRef .tc main_v40)) := by
  after_results_simp <;> rfl

/-- The buffers the part writes. -/
abbrev wS1 : List (Ref sig .tc) :=
  [main_v41, main_cst_4, main_call3_v0, main_call3_v1, main_call3_v2, main_v42, main_cst_5, main_v43, main_v44, main_cst_6, main_call4_v0, main_call4_v1, main_call4_v2, main_v45, main_cst_7, main_call5_v0, main_call5_v1, main_v46, main_v47]

theorem opsS1_writes : (RunP.opsS1 : List (HloOp τ sig (Elt F))).Forall fun op => op.writes ⊆ (wS1.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the row step of `x`. -/
theorem opsS1_step {V0 V : Valuation τ sig (Elt F)} (h : Kept V0 V) {x : FVec F S128x512x512 .f32}
    (hx : V (Proc.devRef .tc main_v40) = x) :
    after RunP.opsS1 V (Proc.devRef .tc main_v47) = Steps.rowStep (Steps.maskOf (V0 (Proc.devRef .tc main_arg1))) x := by
  rw [opsS1_out, h.rowMask, h.rowBlock, hx, rowStep_eq]

/-! ### Operations 74 to 92: the second column step -/

/-- The column step of the mask, the block mask and the operand the part finds in their buffers. -/
theorem opsS2_out (W : Valuation τ sig (Elt F)) : after RunP.opsS2 W (Proc.devRef .tc main_v54)
    = colStepOf (W (Proc.devRef .tc main_v6)) (W (Proc.devRef .tc main_v26)) (W (Proc.devRef .tc main_v47)) := by
  after_results_simp <;> rfl

/-- The buffers the part writes. -/
abbrev wS2 : List (Ref sig .tc) :=
  [main_v48, main_cst_8, main_call6_v0, main_call6_v1, main_call6_v2, main_v49, main_cst_9, main_v50, main_v51, main_cst_10, main_call7_v0, main_call7_v1, main_call7_v2, main_v52, main_cst_11, main_call8_v0, main_call8_v1, main_v53, main_v54]

theorem opsS2_writes : (RunP.opsS2 : List (HloOp τ sig (Elt F))).Forall fun op => op.writes ⊆ (wS2.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the column step of `x`. -/
theorem opsS2_step {V0 V : Valuation τ sig (Elt F)} (h : Kept V0 V) {x : FVec F S128x512x512 .f32}
    (hx : V (Proc.devRef .tc main_v47) = x) :
    after RunP.opsS2 V (Proc.devRef .tc main_v54) = Steps.colStep (Steps.maskOf (V0 (Proc.devRef .tc main_arg2))) x := by
  rw [opsS2_out, h.colMask, h.colBlock, hx, colStep_eq]

/-! ### Operations 93 to 111: the second row step -/

/-- The row step of the mask, the block mask and the operand the part finds in their buffers. -/
theorem opsS3_out (W : Valuation τ sig (Elt F)) : after RunP.opsS3 W (Proc.devRef .tc main_v61)
    = rowStepOf (W (Proc.devRef .tc main_v21)) (W (Proc.devRef .tc main_v31)) (W (Proc.devRef .tc main_v54)) := by
  after_results_simp <;> rfl

/-- The buffers the part writes. -/
abbrev wS3 : List (Ref sig .tc) :=
  [main_v55, main_cst_12, main_call9_v0, main_call9_v1, main_call9_v2, main_v56, main_cst_13, main_v57, main_v58, main_cst_14, main_call10_v0, main_call10_v1, main_call10_v2, main_v59, main_cst_15, main_call11_v0, main_call11_v1, main_v60, main_v61]

theorem opsS3_writes : (RunP.opsS3 : List (HloOp τ sig (Elt F))).Forall fun op => op.writes ⊆ (wS3.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the row step of `x`. -/
theorem opsS3_step {V0 V : Valuation τ sig (Elt F)} (h : Kept V0 V) {x : FVec F S128x512x512 .f32}
    (hx : V (Proc.devRef .tc main_v54) = x) :
    after RunP.opsS3 V (Proc.devRef .tc main_v61) = Steps.rowStep (Steps.maskOf (V0 (Proc.devRef .tc main_arg1))) x := by
  rw [opsS3_out, h.rowMask, h.rowBlock, hx, rowStep_eq]

/-! ### Operations 112 to 130: the third column step -/

/-- The column step of the mask, the block mask and the operand the part finds in their buffers. -/
theorem opsS4_out (W : Valuation τ sig (Elt F)) : after RunP.opsS4 W (Proc.devRef .tc main_v68)
    = colStepOf (W (Proc.devRef .tc main_v6)) (W (Proc.devRef .tc main_v26)) (W (Proc.devRef .tc main_v61)) := by
  after_results_simp <;> rfl

/-- The buffers the part writes. -/
abbrev wS4 : List (Ref sig .tc) :=
  [main_v62, main_cst_16, main_call12_v0, main_call12_v1, main_call12_v2, main_v63, main_cst_17, main_v64, main_v65, main_cst_18, main_call13_v0, main_call13_v1, main_call13_v2, main_v66, main_cst_19, main_call14_v0, main_call14_v1, main_v67, main_v68]

theorem opsS4_writes : (RunP.opsS4 : List (HloOp τ sig (Elt F))).Forall fun op => op.writes ⊆ (wS4.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the column step of `x`. -/
theorem opsS4_step {V0 V : Valuation τ sig (Elt F)} (h : Kept V0 V) {x : FVec F S128x512x512 .f32}
    (hx : V (Proc.devRef .tc main_v61) = x) :
    after RunP.opsS4 V (Proc.devRef .tc main_v68) = Steps.colStep (Steps.maskOf (V0 (Proc.devRef .tc main_arg2))) x := by
  rw [opsS4_out, h.colMask, h.colBlock, hx, colStep_eq]

/-! ### Operations 131 to 149: the third row step -/

/-- The row step of the mask, the block mask and the operand the part finds in their buffers. -/
theorem opsS5_out (W : Valuation τ sig (Elt F)) : after RunP.opsS5 W (Proc.devRef .tc main_v75)
    = rowStepOf (W (Proc.devRef .tc main_v21)) (W (Proc.devRef .tc main_v31)) (W (Proc.devRef .tc main_v68)) := by
  after_results_simp <;> rfl

/-- The buffers the part writes. -/
abbrev wS5 : List (Ref sig .tc) :=
  [main_v69, main_cst_20, main_call15_v0, main_call15_v1, main_call15_v2, main_v70, main_cst_21, main_v71, main_v72, main_cst_22, main_call16_v0, main_call16_v1, main_call16_v2, main_v73, main_cst_23, main_call17_v0, main_call17_v1, main_v74, main_v75]

theorem opsS5_writes : (RunP.opsS5 : List (HloOp τ sig (Elt F))).Forall fun op => op.writes ⊆ (wS5.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the row step of `x`. -/
theorem opsS5_step {V0 V : Valuation τ sig (Elt F)} (h : Kept V0 V) {x : FVec F S128x512x512 .f32}
    (hx : V (Proc.devRef .tc main_v68) = x) :
    after RunP.opsS5 V (Proc.devRef .tc main_v75) = Steps.rowStep (Steps.maskOf (V0 (Proc.devRef .tc main_arg1))) x := by
  rw [opsS5_out, h.rowMask, h.rowBlock, hx, rowStep_eq]

/-! ### Operations 150 to 168: the fourth column step -/

/-- The column step of the mask, the block mask and the operand the part finds in their buffers. -/
theorem opsS6_out (W : Valuation τ sig (Elt F)) : after RunP.opsS6 W (Proc.devRef .tc main_v82)
    = colStepOf (W (Proc.devRef .tc main_v6)) (W (Proc.devRef .tc main_v26)) (W (Proc.devRef .tc main_v75)) := by
  after_results_simp <;> rfl

/-- The buffers the part writes. -/
abbrev wS6 : List (Ref sig .tc) :=
  [main_v76, main_cst_24, main_call18_v0, main_call18_v1, main_call18_v2, main_v77, main_cst_25, main_v78, main_v79, main_cst_26, main_call19_v0, main_call19_v1, main_call19_v2, main_v80, main_cst_27, main_call20_v0, main_call20_v1, main_v81, main_v82]

theorem opsS6_writes : (RunP.opsS6 : List (HloOp τ sig (Elt F))).Forall fun op => op.writes ⊆ (wS6.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the column step of `x`. -/
theorem opsS6_step {V0 V : Valuation τ sig (Elt F)} (h : Kept V0 V) {x : FVec F S128x512x512 .f32}
    (hx : V (Proc.devRef .tc main_v75) = x) :
    after RunP.opsS6 V (Proc.devRef .tc main_v82) = Steps.colStep (Steps.maskOf (V0 (Proc.devRef .tc main_arg2))) x := by
  rw [opsS6_out, h.colMask, h.colBlock, hx, colStep_eq]

/-! ### Operations 169 to 187: the fourth row step -/

/-- The row step of the mask, the block mask and the operand the part finds in their buffers. -/
theorem opsS7_out (W : Valuation τ sig (Elt F)) : after RunP.opsS7 W (Proc.devRef .tc main_v89)
    = rowStepOf (W (Proc.devRef .tc main_v21)) (W (Proc.devRef .tc main_v31)) (W (Proc.devRef .tc main_v82)) := by
  after_results_simp <;> rfl

/-- The buffers the part writes. -/
abbrev wS7 : List (Ref sig .tc) :=
  [main_v83, main_cst_28, main_call21_v0, main_call21_v1, main_call21_v2, main_v84, main_cst_29, main_v85, main_v86, main_cst_30, main_call22_v0, main_call22_v1, main_call22_v2, main_v87, main_cst_31, main_call23_v0, main_call23_v1, main_v88, main_v89]

theorem opsS7_writes : (RunP.opsS7 : List (HloOp τ sig (Elt F))).Forall fun op => op.writes ⊆ (wS7.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the row step of `x`. -/
theorem opsS7_step {V0 V : Valuation τ sig (Elt F)} (h : Kept V0 V) {x : FVec F S128x512x512 .f32}
    (hx : V (Proc.devRef .tc main_v82) = x) :
    after RunP.opsS7 V (Proc.devRef .tc main_v89) = Steps.rowStep (Steps.maskOf (V0 (Proc.devRef .tc main_arg1))) x := by
  rw [opsS7_out, h.rowMask, h.rowBlock, hx, rowStep_eq]

/-! ### Operations 188 to 206: the fifth column step -/

/-- The column step of the mask, the block mask and the operand the part finds in their buffers. -/
theorem opsS8_out (W : Valuation τ sig (Elt F)) : after RunP.opsS8 W (Proc.devRef .tc main_v96)
    = colStepOf (W (Proc.devRef .tc main_v6)) (W (Proc.devRef .tc main_v26)) (W (Proc.devRef .tc main_v89)) := by
  after_results_simp <;> rfl

/-- The buffers the part writes. -/
abbrev wS8 : List (Ref sig .tc) :=
  [main_v90, main_cst_32, main_call24_v0, main_call24_v1, main_call24_v2, main_v91, main_cst_33, main_v92, main_v93, main_cst_34, main_call25_v0, main_call25_v1, main_call25_v2, main_v94, main_cst_35, main_call26_v0, main_call26_v1, main_v95, main_v96]

theorem opsS8_writes : (RunP.opsS8 : List (HloOp τ sig (Elt F))).Forall fun op => op.writes ⊆ (wS8.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the column step of `x`. -/
theorem opsS8_step {V0 V : Valuation τ sig (Elt F)} (h : Kept V0 V) {x : FVec F S128x512x512 .f32}
    (hx : V (Proc.devRef .tc main_v89) = x) :
    after RunP.opsS8 V (Proc.devRef .tc main_v96) = Steps.colStep (Steps.maskOf (V0 (Proc.devRef .tc main_arg2))) x := by
  rw [opsS8_out, h.colMask, h.colBlock, hx, colStep_eq]

/-! ### Operations 207 to 225: the fifth row step -/

/-- The row step of the mask, the block mask and the operand the part finds in their buffers. -/
theorem opsS9_out (W : Valuation τ sig (Elt F)) : after RunP.opsS9 W (Proc.devRef .tc main_v103)
    = rowStepOf (W (Proc.devRef .tc main_v21)) (W (Proc.devRef .tc main_v31)) (W (Proc.devRef .tc main_v96)) := by
  after_results_simp <;> rfl

/-- The buffers the part writes. -/
abbrev wS9 : List (Ref sig .tc) :=
  [main_v97, main_cst_36, main_call27_v0, main_call27_v1, main_call27_v2, main_v98, main_cst_37, main_v99, main_v100, main_cst_38, main_call28_v0, main_call28_v1, main_call28_v2, main_v101, main_cst_39, main_call29_v0, main_call29_v1, main_v102, main_v103]

theorem opsS9_writes : (RunP.opsS9 : List (HloOp τ sig (Elt F))).Forall fun op => op.writes ⊆ (wS9.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- From kept masks and the operand `x` in its buffer, the part leaves the row step of `x`. -/
theorem opsS9_step {V0 V : Valuation τ sig (Elt F)} (h : Kept V0 V) {x : FVec F S128x512x512 .f32}
    (hx : V (Proc.devRef .tc main_v96) = x) :
    after RunP.opsS9 V (Proc.devRef .tc main_v103) = Steps.rowStep (Steps.maskOf (V0 (Proc.devRef .tc main_arg1))) x := by
  rw [opsS9_out, h.rowMask, h.rowBlock, hx, rowStep_eq]

/-! ## The whole line -/

/-- The 225 operations from contents `V0`: the result buffer ends at ten alternating steps of the data plus the
    literal, and the masks and the arguments are as the first part left them. -/
theorem ops_value (V0 : Valuation τ sig (Elt F)) :
    after RunP.ops V0 (Proc.devRef .tc main_v103)
        = Steps.result (V0 (Proc.devRef .tc main_arg0)) (V0 (Proc.devRef .tc main_arg1)) (V0 (Proc.devRef .tc main_arg2))
      ∧ Kept V0 (after RunP.ops V0) := by
  have e : after (RunP.ops : List (HloOp τ sig (Elt F))) V0
      = after RunP.opsS9 (after RunP.opsS8 (after RunP.opsS7 (after RunP.opsS6 (after RunP.opsS5 (after RunP.opsS4 (after RunP.opsS3 (after RunP.opsS2 (after RunP.opsS1 (after RunP.opsS0 (after RunP.opsM V0)))))))))) := by
    simp only [RunP.ops, after_append]
  have k0 := Kept.first V0
  have x0 := opsM_start V0
  have x1 := opsS0_step k0 x0
  have k1 := k0.after RunP.opsS0 opsS0_writes (by decide)
  have x2 := opsS1_step k1 x1
  have k2 := k1.after RunP.opsS1 opsS1_writes (by decide)
  have x3 := opsS2_step k2 x2
  have k3 := k2.after RunP.opsS2 opsS2_writes (by decide)
  have x4 := opsS3_step k3 x3
  have k4 := k3.after RunP.opsS3 opsS3_writes (by decide)
  have x5 := opsS4_step k4 x4
  have k5 := k4.after RunP.opsS4 opsS4_writes (by decide)
  have x6 := opsS5_step k5 x5
  have k6 := k5.after RunP.opsS5 opsS5_writes (by decide)
  have x7 := opsS6_step k6 x6
  have k7 := k6.after RunP.opsS6 opsS6_writes (by decide)
  have x8 := opsS7_step k7 x7
  have k8 := k7.after RunP.opsS7 opsS7_writes (by decide)
  have x9 := opsS8_step k8 x8
  have k9 := k8.after RunP.opsS8 opsS8_writes (by decide)
  have x10 := opsS9_step k9 x9
  have k10 := k9.after RunP.opsS9 opsS9_writes (by decide)
  rw [e]
  exact ⟨x10, k10⟩

/-- The run, with the result as `Steps.result` of the launch contents of the three arguments. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103)
        = Steps.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    have v := ops_value (launchContents m c)
    ⟨(h c main_v103).trans v.1, (h c main_arg0).trans v.2.arg0, (h c main_arg1).trans v.2.arg1, (h c main_arg2).trans v.2.arg2⟩)
    (RunP.run_after m ρ)

end Cert.ReferenceIdeal.RefValue

end
-- ==== Proof.lean ====
/-
  Masked Sinkhorn normalisation of 128 tiles of 512 × 512: a kernel that takes two tiles per grid point
  and runs the ten alternating column and row steps on each in place, against the reference that runs
  the ten steps on the whole array.  Equivalence over the extended reals, on the inputs where every
  entry of the data is a non-negative real and, for every tile, the indices below its row count lie
  below its column count.

  Both programs compute, tile by tile, ten alternating steps on `s[b] + ε`: a column step divides
  the entries of the block `P × P` (`P` the indices below the column count) by their column sums
  and zeroes the rest, a row step does the same along rows on `Q × Q` (`Q` the indices below the
  row count).  They differ in how a step is written.  The reference divides, `x / d`, with the
  divisor masked by the block; the kernel multiplies by a reciprocal, `x · (1 / d)`, with the
  divisor masked by the column (row) set alone, and from the third step on it sums whole columns
  (rows) without a mask, the entries outside the block being zero by then.  Over the extended
  reals `x / d = x · (1 / d)` for every `d ≠ 0`, and the two differ only at `0 / 0`; positive data
  keep every divisor inside a block a positive real, so that corner is met only where the
  reference's own block is wider than the tile's support — the columns of `P` outside `Q` after a
  column step — and the next row step masks those columns before it sums and zeroes them when it
  divides (`Cert.Sinkhorn.chain_eq`, under `Q ⊆ P`).

  The kernel's frames are the generated ones (its index maps read neither count vector, so the
  side condition on the prefetched tables is `True`); its value is read off the generated frame
  run (`KValue.run_value`).  The reference's run is the fold of its 225 host operations read part
  by part (`RefValue.run_value`), and its frame is that run with the result dropped.  The ideal
  pass rewrote nothing, so `preserves` is `True`.
-/
import proofs.«421173_j7550552506671_2_alg».proof.Defs
import proofs.«421173_j7550552506671_2_alg».proof.Proof.Gen.Kernel
import proofs.«421173_j7550552506671_2_alg».proof.Proof.Gen.Kernel.Skeleton
import proofs.«421173_j7550552506671_2_alg».proof.Proof.Gen.Kernel.Launch
import proofs.«421173_j7550552506671_2_alg».proof.Proof.Gen.Kernel.Points
import proofs.«421173_j7550552506671_2_alg».proof.Proof.Gen.Kernel.Frame
import proofs.«421173_j7550552506671_2_alg».proof.Proof.Gen.KernelIdeal
import proofs.«421173_j7550552506671_2_alg».proof.Proof.Gen.KernelIdeal.Skeleton
import proofs.«421173_j7550552506671_2_alg».proof.Proof.Gen.KernelIdeal.Launch
import proofs.«421173_j7550552506671_2_alg».proof.Proof.Gen.KernelIdeal.Points
import proofs.«421173_j7550552506671_2_alg».proof.Proof.Gen.KernelIdeal.Frame
import proofs.«421173_j7550552506671_2_alg».proof.Proof.Gen.ReferenceIdeal
import proofs.«421173_j7550552506671_2_alg».proof.Proof.Gen.Pre_finite_inputs
import proofs.«421173_j7550552506671_2_alg».proof.Proof.PreFacts
import proofs.«421173_j7550552506671_2_alg».proof.Proof.KerValue
import proofs.«421173_j7550552506671_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame, whose side condition on the
    prefetched count vectors is `True` (no index map reads them). -/
theorem frame_k : Cert.frame_Kernel := fun m ρ _ => Cert.Kernel.Gen.frame m ρ trivial

/-- The same for the idealized kernel. -/
theorem frame_ki : Cert.frame_KernelIdeal := fun m ρ _ => Cert.KernelIdeal.Gen.frame m ρ trivial

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run_value (F := Ideal) m ρ)

/-- The ideal pass rewrote no operation. -/
theorem preserves : Cert.preserves_Kernel_KernelIdeal := trivial

/-- From memories agreeing on the arguments the kernel's result array ends at `Spec.kerG` of them and the
    reference's at `Spec.refG`; the precondition makes the data non-negative reals and puts every row set
    inside its column set, where the two are one function. -/
theorem algebraic : Cert.algebraic_KernelIdeal_ReferenceIdeal := by
  intro m ρ m' ρ' hpre hagree
  refine ⟨_, Cert.KernelIdeal.KValue.run_value m ρ, ?_⟩
  refine (θ_run Cert.ReferenceIdeal.defs _ _).mono (fun r h c => ⟨(h c).1.trans ?_, (h c).2⟩)
    (Cert.ReferenceIdeal.RefValue.run_value (F := Ideal) m' ρ')
  rw [(hagree c).1, (hagree c).2.1, (hagree c).2.2, Cert.ReferenceIdeal.Steps.result_eq]
  obtain ⟨hpos, hsub⟩ := Cert.PreFacts.of_pre _ _ _ (hpre c)
  exact (Spec.kerG_eq_refG _ _ _ hpos hsub).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
